-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v168)) (v1 : (c : Dev Cert.KernelIdeal.nD) → Buf (Elt Ideal) ((c.tc : Thread Cert.KernelIdeal.nD Cert.KernelIdeal.τ).loc Cert.KernelIdeal.main_v134)) (v2 : (c : Dev Cert.KernelIdeal.nD) → Buf (Elt Ideal) ((c.tc : Thread Cert.KernelIdeal.nD Cert.KernelIdeal.τ).loc Cert.KernelIdeal.main_v136)) (v3 : (c : Dev Cert.KernelIdeal.nD) → Buf (Elt Ideal) ((c.tc : Thread Cert.KernelIdeal.nD Cert.KernelIdeal.τ).loc Cert.KernelIdeal.main_v130)) (v4 : (c : Dev Cert.KernelIdeal.nD) → Buf (Elt Ideal) ((c.tc : Thread Cert.KernelIdeal.nD Cert.KernelIdeal.τ).loc Cert.KernelIdeal.main_v132)) (v5 : (c : Dev Cert.KernelIdeal.nD) → Buf (Elt Ideal) ((c.tc : Thread Cert.KernelIdeal.nD Cert.KernelIdeal.τ).loc Cert.KernelIdeal.main_v146)) (v6 : (c : Dev Cert.KernelIdeal.nD) → Buf (Elt Ideal) ((c.tc : Thread Cert.KernelIdeal.nD Cert.KernelIdeal.τ).loc Cert.KernelIdeal.main_v153)) (v7 : (c : Dev Cert.KernelIdeal.nD) → Buf (Elt Ideal) ((c.tc : Thread Cert.KernelIdeal.nD Cert.KernelIdeal.τ).loc Cert.KernelIdeal.main_v148)) (v8 : (c : Dev Cert.KernelIdeal.nD) → Buf (Elt Ideal) ((c.tc : Thread Cert.KernelIdeal.nD Cert.KernelIdeal.τ).loc Cert.KernelIdeal.main_v144)) (v9 : (c : Dev Cert.KernelIdeal.nD) → Buf (Elt Ideal) ((c.tc : Thread Cert.KernelIdeal.nD Cert.KernelIdeal.τ).loc Cert.KernelIdeal.main_v150)) (v10 : (c : Dev Cert.KernelIdeal.nD) → Buf (Elt Ideal) ((c.tc : Thread Cert.KernelIdeal.nD Cert.KernelIdeal.τ).loc Cert.KernelIdeal.main_v138)) (v11 : (c : Dev Cert.KernelIdeal.nD) → Buf (Elt Ideal) ((c.tc : Thread Cert.KernelIdeal.nD Cert.KernelIdeal.τ).loc Cert.KernelIdeal.main_v140)) (v12 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v168) = v0 c
          ∧ r.2.mem ((c.tc : Thread Cert.KernelIdeal.nD Cert.KernelIdeal.τ).loc Cert.KernelIdeal.main_v134) = v1 c
          ∧ r.2.mem ((c.tc : Thread Cert.KernelIdeal.nD Cert.KernelIdeal.τ).loc Cert.KernelIdeal.main_v136) = v2 c
          ∧ r.2.mem ((c.tc : Thread Cert.KernelIdeal.nD Cert.KernelIdeal.τ).loc Cert.KernelIdeal.main_v130) = v3 c
          ∧ r.2.mem ((c.tc : Thread Cert.KernelIdeal.nD Cert.KernelIdeal.τ).loc Cert.KernelIdeal.main_v132) = v4 c
          ∧ r.2.mem ((c.tc : Thread Cert.KernelIdeal.nD Cert.KernelIdeal.τ).loc Cert.KernelIdeal.main_v146) = v5 c
          ∧ r.2.mem ((c.tc : Thread Cert.KernelIdeal.nD Cert.KernelIdeal.τ).loc Cert.KernelIdeal.main_v153) = v6 c
          ∧ r.2.mem ((c.tc : Thread Cert.KernelIdeal.nD Cert.KernelIdeal.τ).loc Cert.KernelIdeal.main_v148) = v7 c
          ∧ r.2.mem ((c.tc : Thread Cert.KernelIdeal.nD Cert.KernelIdeal.τ).loc Cert.KernelIdeal.main_v144) = v8 c
          ∧ r.2.mem ((c.tc : Thread Cert.KernelIdeal.nD Cert.KernelIdeal.τ).loc Cert.KernelIdeal.main_v150) = v9 c
          ∧ r.2.mem ((c.tc : Thread Cert.KernelIdeal.nD Cert.KernelIdeal.τ).loc Cert.KernelIdeal.main_v138) = v10 c
          ∧ r.2.mem ((c.tc : Thread Cert.KernelIdeal.nD Cert.KernelIdeal.τ).loc Cert.KernelIdeal.main_v140) = v11 c
          ∧ r.2.mem ((c.tc : Thread Cert.KernelIdeal.nD Cert.KernelIdeal.τ).loc Cert.KernelIdeal.main_v142) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_v235) = v1 c
          ∧ r.2.mem ((c.tc : Thread Cert.ReferenceIdeal.nD Cert.ReferenceIdeal.τ).loc Cert.ReferenceIdeal.main_v242) = v2 c
          ∧ r.2.mem ((c.tc : Thread Cert.ReferenceIdeal.nD Cert.ReferenceIdeal.τ).loc Cert.ReferenceIdeal.main_v203) = v3 c
          ∧ r.2.mem ((c.tc : Thread Cert.ReferenceIdeal.nD Cert.ReferenceIdeal.τ).loc Cert.ReferenceIdeal.main_v213) = v4 c
          ∧ r.2.mem ((c.tc : Thread Cert.ReferenceIdeal.nD Cert.ReferenceIdeal.τ).loc Cert.ReferenceIdeal.main_v169) = v5 c
          ∧ r.2.mem ((c.tc : Thread Cert.ReferenceIdeal.nD Cert.ReferenceIdeal.τ).loc Cert.ReferenceIdeal.main_v245) = v6 c
          ∧ r.2.mem ((c.tc : Thread Cert.ReferenceIdeal.nD Cert.ReferenceIdeal.τ).loc Cert.ReferenceIdeal.main_v180) = v7 c
          ∧ r.2.mem ((c.tc : Thread Cert.ReferenceIdeal.nD Cert.ReferenceIdeal.τ).loc Cert.ReferenceIdeal.main_v166) = v8 c
          ∧ r.2.mem ((c.tc : Thread Cert.ReferenceIdeal.nD Cert.ReferenceIdeal.τ).loc Cert.ReferenceIdeal.main_v193) = v9 c
          ∧ r.2.mem ((c.tc : Thread Cert.ReferenceIdeal.nD Cert.ReferenceIdeal.τ).loc Cert.ReferenceIdeal.main_v53) = v10 c
          ∧ r.2.mem ((c.tc : Thread Cert.ReferenceIdeal.nD Cert.ReferenceIdeal.τ).loc Cert.ReferenceIdeal.main_v54) = v11 c
          ∧ r.2.mem ((c.tc : Thread Cert.ReferenceIdeal.nD Cert.ReferenceIdeal.τ).loc Cert.ReferenceIdeal.main_v55) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S4000000x2 : Shape := ⟨2, ![4000000, 2]⟩
abbrev S4000000 : Shape := ⟨1, ![4000000]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S4000000 : S_.BroadcastsInDim S4000000 (![] : Fin 0 → Fin S4000000.rank)
  reducesTo_S4000000_S_d0 : S4000000.ReducesTo [0] S_

variable [Facts]

def fn_part1 {F : FTy → Type} [FloatOps F] (main_arg5 : FVec F S4000000 .f32) (main_v13 : IVec S_ 1) (main_v16 : IVec S4000000 1) : IVec S_ 1 :=
  let main_c_5 : IVec S_ 1 := constantI S_ 1 1#1
  let main_v17 : IVec S_ 1 := (fun x v => Host.reduce IntOp.andi x v reducesTo_S4000000_S_d0 h_S_) main_v16 main_c_5
  let main_v18 : IVec S_ 1 := andi main_v13 main_v17
  let main_v19 : FVec F S4000000 .f32 := Host.absf main_arg5
  let main_cst_6 : FVec F S_ .f32 := constant S_ .f32 0x7F800000#32
  let main_v20 : FVec F S4000000 .f32 := broadcastInDim S4000000 ![] bcast_S_S4000000 main_cst_6
  let main_v21 : IVec S4000000 1 := cmpf .olt main_v19 main_v20
  let main_c_7 : IVec S_ 1 := constantI S_ 1 1#1
  let main_v22 : IVec S_ 1 := (fun x v => Host.reduce IntOp.andi x v reducesTo_S4000000_S_d0 h_S_) main_v21 main_c_7
  let main_v23 : IVec S_ 1 := andi main_v18 main_v22
  main_v23

def fn {F : FTy → Type} [FloatOps F] (main_arg0 : FVec F S1000000x3 .f32) (main_arg1 : IVec S4000000x2 32) (main_arg2 : FVec F S1000000x3 .f32) (main_arg3 : FVec F S4000000 .f32) (main_arg4 : FVec F S4000000 .f32) (main_arg5 : FVec F S4000000 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S1000000x3 .f32 := Host.absf main_arg2
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S4000000 .f32 := Host.absf main_arg3
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S4000000 .f32 := Host.absf main_arg4
  let main_cst_4 : FVec F S_ .f32 := constant S_ .f32 0x7F800000#32
  let main_v15 : FVec F S4000000 .f32 := broadcastInDim S4000000 ![] bcast_S_S4000000 main_cst_4
  let main_v16 : IVec S4000000 1 := cmpf .olt main_v14 main_v15
  fn_part1 (F := F) main_arg5 main_v13 main_v16
-- ==== Kernel.lean ====
abbrev S1000000x3 : Shape := ⟨2, ![1000000, 3]⟩
abbrev S4000000x2 : Shape := ⟨2, ![4000000, 2]⟩
abbrev S4000000 : Shape := ⟨1, ![4000000]⟩
abbrev S4000000x1 : Shape := ⟨2, ![4000000, 1]⟩
abbrev S_ : Shape := ⟨0, ![]⟩
abbrev S1x4000000 : Shape := ⟨2, ![1, 4000000]⟩
abbrev S13x4000000 : Shape := ⟨2, ![13, 4000000]⟩
abbrev S21x4000000 : Shape := ⟨2, ![21, 4000000]⟩
abbrev S13x32000 : Shape := ⟨2, ![13, 32000]⟩
abbrev S21x32000 : Shape := ⟨2, ![21, 32000]⟩
abbrev S1x32000 : Shape := ⟨2, ![1, 32000]⟩
abbrev S32000 : Shape := ⟨1, ![32000]⟩
abbrev S3x4000000 : Shape := ⟨2, ![3, 4000000]⟩
abbrev S4000000x3 : Shape := ⟨2, ![4000000, 3]⟩
abbrev S6x4000000 : Shape := ⟨2, ![6, 4000000]⟩
abbrev S4000000x6 : Shape := ⟨2, ![4000000, 6]⟩

abbrev nBuf : Space → Nat
  | .hbm => 211
  | .vmem => 4
  | .smem => 0
  | _ => 0

abbrev hbmTy0_0 (i : Nat) : BufTy := match i % 128 with
  | 0 => ⟨S1000000x3, .f32⟩
  | 1 => ⟨S4000000x2, .i32⟩
  | 2 => ⟨S1000000x3, .f32⟩
  | 3 => ⟨S4000000, .f32⟩
  | 4 => ⟨S4000000, .f32⟩
  | 5 => ⟨S4000000, .f32⟩
  | 6 => ⟨S4000000x1, .i32⟩
  | 7 => ⟨S4000000, .i32⟩
  | 8 => ⟨S4000000x1, .i32⟩
  | 9 => ⟨S4000000, .i32⟩
  | 10 => ⟨S_, .i32⟩
  | 11 => ⟨S4000000, .i32⟩
  | 12 => ⟨S4000000, .i1⟩
  | 13 => ⟨S_, .i32⟩
  | 14 => ⟨S4000000, .i32⟩
  | 15 => ⟨S4000000, .i32⟩
  | 16 => ⟨S4000000, .i32⟩
  | 17 => ⟨S_, .i32⟩
  | 18 => ⟨S4000000, .i32⟩
  | 19 => ⟨S4000000, .i32⟩
  | 20 => ⟨S4000000x1, .i32⟩
  | 21 => ⟨S4000000x1, .i32⟩
  | 22 => ⟨S4000000x2, .i32⟩
  | 23 => ⟨S4000000, .f32⟩
  | 24 => ⟨S_, .i32⟩
  | 25 => ⟨S4000000, .i32⟩
  | 26 => ⟨S4000000, .i1⟩
  | 27 => ⟨S_, .i32⟩
  | 28 => ⟨S4000000, .i32⟩
  | 29 => ⟨S4000000, .i32⟩
  | 30 => ⟨S4000000, .i32⟩
  | 31 => ⟨S_, .i32⟩
  | 32 => ⟨S4000000, .i32⟩
  | 33 => ⟨S4000000, .i32⟩
  | 34 => ⟨S4000000x1, .i32⟩
  | 35 => ⟨S4000000x1, .i32⟩
  | 36 => ⟨S4000000x2, .i32⟩
  | 37 => ⟨S4000000, .f32⟩
  | 38 => ⟨S_, .i32⟩
  | 39 => ⟨S4000000, .i32⟩
  | 40 => ⟨S4000000, .i1⟩
  | 41 => ⟨S_, .i32⟩
  | 42 => ⟨S4000000, .i32⟩
  | 43 => ⟨S4000000, .i32⟩
  | 44 => ⟨S4000000, .i32⟩
  | 45 => ⟨S_, .i32⟩
  | 46 => ⟨S4000000, .i32⟩
  | 47 => ⟨S4000000, .i32⟩
  | 48 => ⟨S4000000x1, .i32⟩
  | 49 => ⟨S4000000x1, .i32⟩
  | 50 => ⟨S4000000x2, .i32⟩
  | 51 => ⟨S4000000, .f32⟩
  | 52 => ⟨S_, .i32⟩
  | 53 => ⟨S4000000, .i32⟩
  | 54 => ⟨S4000000, .i1⟩
  | 55 => ⟨S_, .i32⟩
  | 56 => ⟨S4000000, .i32⟩
  | 57 => ⟨S4000000, .i32⟩
  | 58 => ⟨S4000000, .i32⟩
  | 59 => ⟨S_, .i32⟩
  | 60 => ⟨S4000000, .i32⟩
  | 61 => ⟨S4000000, .i32⟩
  | 62 => ⟨S4000000x1, .i32⟩
  | 63 => ⟨S4000000x1, .i32⟩
  | 64 => ⟨S4000000x2, .i32⟩
  | 65 => ⟨S4000000, .f32⟩
  | 66 => ⟨S_, .i32⟩
  | 67 => ⟨S4000000, .i32⟩
  | 68 => ⟨S4000000, .i1⟩
  | 69 => ⟨S_, .i32⟩
  | 70 => ⟨S4000000, .i32⟩
  | 71 => ⟨S4000000, .i32⟩
  | 72 => ⟨S4000000, .i32⟩
  | 73 => ⟨S_, .i32⟩
  | 74 => ⟨S4000000, .i32⟩
  | 75 => ⟨S4000000, .i32⟩
  | 76 => ⟨S4000000x1, .i32⟩
  | 77 => ⟨S4000000x1, .i32⟩
  | 78 => ⟨S4000000x2, .i32⟩
  | 79 => ⟨S4000000, .f32⟩
  | 80 => ⟨S_, .i32⟩
  | 81 => ⟨S4000000, .i32⟩
  | 82 => ⟨S4000000, .i1⟩
  | 83 => ⟨S_, .i32⟩
  | 84 => ⟨S4000000, .i32⟩
  | 85 => ⟨S4000000, .i32⟩
  | 86 => ⟨S4000000, .i32⟩
  | 87 => ⟨S_, .i32⟩
  | 88 => ⟨S4000000, .i32⟩
  | 89 => ⟨S4000000, .i32⟩
  | 90 => ⟨S4000000x1, .i32⟩
  | 91 => ⟨S4000000x1, .i32⟩
  | 92 => ⟨S4000000x2, .i32⟩
  | 93 => ⟨S4000000, .f32⟩
  | 94 => ⟨S_, .i32⟩
  | 95 => ⟨S4000000, .i32⟩
  | 96 => ⟨S4000000, .i1⟩
  | 97 => ⟨S_, .i32⟩
  | 98 => ⟨S4000000, .i32⟩
  | 99 => ⟨S4000000, .i32⟩
  | 100 => ⟨S4000000, .i32⟩
  | 101 => ⟨S_, .i32⟩
  | 102 => ⟨S4000000, .i32⟩
  | 103 => ⟨S4000000, .i32⟩
  | 104 => ⟨S4000000x1, .i32⟩
  | 105 => ⟨S4000000x1, .i32⟩
  | 106 => ⟨S4000000x2, .i32⟩
  | 107 => ⟨S4000000, .f32⟩
  | 108 => ⟨S_, .i32⟩
  | 109 => ⟨S4000000, .i32⟩
  | 110 => ⟨S4000000, .i1⟩
  | 111 => ⟨S_, .i32⟩
  | 112 => ⟨S4000000, .i32⟩
  | 113 => ⟨S4000000, .i32⟩
  | 114 => ⟨S4000000, .i32⟩
  | 115 => ⟨S_, .i32⟩
  | 116 => ⟨S4000000, .i32⟩
  | 117 => ⟨S4000000, .i32⟩
  | 118 => ⟨S4000000x1, .i32⟩
  | 119 => ⟨S4000000x1, .i32⟩
  | 120 => ⟨S4000000x2, .i32⟩
  | 121 => ⟨S4000000, .f32⟩
  | 122 => ⟨S_, .i32⟩
  | 123 => ⟨S4000000, .i32⟩
  | 124 => ⟨S4000000, .i1⟩
  | 125 => ⟨S_, .i32⟩
  | 126 => ⟨S4000000, .i32⟩
  | 127 => ⟨S4000000, .i32⟩
  | _ => ⟨S1000000x3, .f32⟩

abbrev hbmTy0_1 (i : Nat) : BufTy := match i % 128 with
  | 0 => ⟨S4000000, .i32⟩
  | 1 => ⟨S_, .i32⟩
  | 2 => ⟨S4000000, .i32⟩
  | 3 => ⟨S4000000, .i32⟩
  | 4 => ⟨S4000000x1, .i32⟩
  | 5 => ⟨S4000000x1, .i32⟩
  | 6 => ⟨S4000000x2, .i32⟩
  | 7 => ⟨S4000000, .f32⟩
  | 8 => ⟨S_, .i32⟩
  | 9 => ⟨S4000000, .i32⟩
  | 10 => ⟨S4000000, .i1⟩
  | 11 => ⟨S_, .i32⟩
  | 12 => ⟨S4000000, .i32⟩
  | 13 => ⟨S4000000, .i32⟩
  | 14 => ⟨S4000000, .i32⟩
  | 15 => ⟨S_, .i32⟩
  | 16 => ⟨S4000000, .i32⟩
  | 17 => ⟨S4000000, .i32⟩
  | 18 => ⟨S4000000x1, .i32⟩
  | 19 => ⟨S4000000x1, .i32⟩
  | 20 => ⟨S4000000x2, .i32⟩
  | 21 => ⟨S4000000, .f32⟩
  | 22 => ⟨S1x4000000, .f32⟩
  | 23 => ⟨S1x4000000, .f32⟩
  | 24 => ⟨S1x4000000, .f32⟩
  | 25 => ⟨S1x4000000, .f32⟩
  | 26 => ⟨S1x4000000, .f32⟩
  | 27 => ⟨S1x4000000, .f32⟩
  | 28 => ⟨S1x4000000, .f32⟩
  | 29 => ⟨S1x4000000, .f32⟩
  | 30 => ⟨S1x4000000, .f32⟩
  | 31 => ⟨S1x4000000, .f32⟩
  | 32 => ⟨S1x4000000, .f32⟩
  | 33 => ⟨S1x4000000, .f32⟩
  | 34 => ⟨S1x4000000, .f32⟩
  | 35 => ⟨S13x4000000, .f32⟩
  | 36 => ⟨S21x4000000, .f32⟩
  | 37 => ⟨S3x4000000, .f32⟩
  | 38 => ⟨S4000000x3, .f32⟩
  | 39 => ⟨S3x4000000, .f32⟩
  | 40 => ⟨S4000000x3, .f32⟩
  | 41 => ⟨S6x4000000, .f32⟩
  | 42 => ⟨S4000000x6, .f32⟩
  | 43 => ⟨S6x4000000, .f32⟩
  | 44 => ⟨S4000000x6, .f32⟩
  | 45 => ⟨S1x4000000, .f32⟩
  | 46 => ⟨S4000000, .f32⟩
  | 47 => ⟨S1x4000000, .f32⟩
  | 48 => ⟨S4000000, .f32⟩
  | 49 => ⟨S1x4000000, .f32⟩
  | 50 => ⟨S4000000, .f32⟩
  | 51 => ⟨S1x4000000, .f32⟩
  | 52 => ⟨S4000000, .f32⟩
  | 53 => ⟨S1x4000000, .f32⟩
  | 54 => ⟨S4000000, .f32⟩
  | 55 => ⟨S1x4000000, .f32⟩
  | 56 => ⟨S4000000, .f32⟩
  | 57 => ⟨S1x4000000, .f32⟩
  | 58 => ⟨S4000000, .f32⟩
  | 59 => ⟨S4000000, .f32⟩
  | 60 => ⟨S_, .f32⟩
  | 61 => ⟨S4000000, .f32⟩
  | 62 => ⟨S4000000, .f32⟩
  | 63 => ⟨S_, .f32⟩
  | 64 => ⟨S1000000x3, .f32⟩
  | 65 => ⟨S_, .i32⟩
  | 66 => ⟨S4000000, .i32⟩
  | 67 => ⟨S4000000, .i1⟩
  | 68 => ⟨S_, .i32⟩
  | 69 => ⟨S4000000, .i32⟩
  | 70 => ⟨S4000000, .i32⟩
  | 71 => ⟨S4000000, .i32⟩
  | 72 => ⟨S4000000x1, .i32⟩
  | 73 => ⟨S1000000x3, .f32⟩
  | 74 => ⟨S_, .i32⟩
  | 75 => ⟨S4000000, .i32⟩
  | 76 => ⟨S4000000, .i1⟩
  | 77 => ⟨S_, .i32⟩
  | 78 => ⟨S4000000, .i32⟩
  | 79 => ⟨S4000000, .i32⟩
  | 80 => ⟨S4000000, .i32⟩
  | 81 => ⟨S4000000x1, .i32⟩
  | 82 => ⟨S1000000x3, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | .local _ .vmem, ⟨0, _⟩ => ⟨S13x32000, .f32⟩
  | .local _ .vmem, ⟨1, _⟩ => ⟨S13x32000, .f32⟩
  | .local _ .vmem, ⟨2, _⟩ => ⟨S21x32000, .f32⟩
  | .local _ .vmem, ⟨3, _⟩ => ⟨S21x32000, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_11 : Ref sig .tc := ⟨.hbm, 66, rfl⟩
abbrev main_v48 : Ref sig .tc := ⟨.hbm, 67, rfl⟩
abbrev main_v49 : Ref sig .tc := ⟨.hbm, 68, rfl⟩
abbrev main_c_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_14 : Ref sig .tc := ⟨.hbm, 80, rfl⟩
abbrev main_v59 : Ref sig .tc := ⟨.hbm, 81, rfl⟩
abbrev main_v60 : Ref sig .tc := ⟨.hbm, 82, rfl⟩
abbrev main_c_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_17 : Ref sig .tc := ⟨.hbm, 94, rfl⟩
abbrev main_v70 : Ref sig .tc := ⟨.hbm, 95, rfl⟩
abbrev main_v71 : Ref sig .tc := ⟨.hbm, 96, rfl⟩
abbrev main_c_18 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_19 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_20 : Ref sig .tc := ⟨.hbm, 108, rfl⟩
abbrev main_v81 : Ref sig .tc := ⟨.hbm, 109, rfl⟩
abbrev main_v82 : Ref sig .tc := ⟨.hbm, 110, rfl⟩
abbrev main_c_21 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_22 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_23 : Ref sig .tc := ⟨.hbm, 122, rfl⟩
abbrev main_v92 : Ref sig .tc := ⟨.hbm, 123, rfl⟩
abbrev main_v93 : Ref sig .tc := ⟨.hbm, 124, rfl⟩
abbrev main_c_24 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_25 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_26 : Ref sig .tc := ⟨.hbm, 136, rfl⟩
abbrev main_v103 : Ref sig .tc := ⟨.hbm, 137, rfl⟩
abbrev main_v104 : Ref sig .tc := ⟨.hbm, 138, rfl⟩
abbrev main_c_27 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_28 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst : Ref sig .tc := ⟨.hbm, 188, rfl⟩
abbrev main_v152 : Ref sig .tc := ⟨.hbm, 189, rfl⟩
abbrev main_v153 : Ref sig .tc := ⟨.hbm, 190, rfl⟩
abbrev main_cst_29 : Ref sig .tc := ⟨.hbm, 191, rfl⟩
abbrev main_v154 : Ref sig .tc := ⟨.hbm, 192, rfl⟩
abbrev main_c_30 : Ref sig .tc := ⟨.hbm, 193, rfl⟩
abbrev main_v155 : Ref sig .tc := ⟨.hbm, 194, rfl⟩
abbrev main_v156 : Ref sig .tc := ⟨.hbm, 195, rfl⟩
abbrev main_c_31 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_c_32 : Ref sig .tc := ⟨.hbm, 202, rfl⟩
abbrev main_v162 : Ref sig .tc := ⟨.hbm, 203, rfl⟩
abbrev main_v163 : Ref sig .tc := ⟨.hbm, 204, rfl⟩
abbrev main_c_33 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S13x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S21x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  bcast_S4000000_S1x4000000_1 : S4000000.BroadcastsInDim S1x4000000 (![1] : Fin 1 → Fin S1x4000000.rank)
  concatenates_S1x4000000_S1x4000000_S1x4000000_S1x4000000_S1x4000000_S1x4000000_S1x4000000_S1x4000000_S1x4000000_S1x4000000_S1x4000000_S1x4000000_S1x4000000_S13x4000000_d0 : Shape.Concatenates [S1x4000000, S1x4000000, S1x4000000, S1x4000000, S1x4000000, S1x4000000, S1x4000000, S1x4000000, S1x4000000, S1x4000000, S1x4000000, S1x4000000, S1x4000000] S13x4000000 0
  inb_S13x32000_S13x32000_0_0 : ∀ a, (![0, 0] : Fin 2 → Nat) a + S13x32000.size a ≤ S13x32000.size a
  h_S13x32000 : 0 < S13x32000.numel
  shapeCasts_S13x32000_S13x32000 : S13x32000.ShapeCasts S13x32000
  slices_S13x32000_o0_0_S1x32000 : S13x32000.Slices ![0, 0] S1x32000
  shapeCasts_S1x32000_S32000 : S1x32000.ShapeCasts S32000
  slices_S13x32000_o1_0_S1x32000 : S13x32000.Slices ![1, 0] S1x32000
  slices_S13x32000_o2_0_S1x32000 : S13x32000.Slices ![2, 0] S1x32000
  slices_S13x32000_o3_0_S1x32000 : S13x32000.Slices ![3, 0] S1x32000
  slices_S13x32000_o4_0_S1x32000 : S13x32000.Slices ![4, 0] S1x32000
  slices_S13x32000_o5_0_S1x32000 : S13x32000.Slices ![5, 0] S1x32000
  slices_S13x32000_o6_0_S1x32000 : S13x32000.Slices ![6, 0] S1x32000
  slices_S13x32000_o7_0_S1x32000 : S13x32000.Slices ![7, 0] S1x32000
  slices_S13x32000_o8_0_S1x32000 : S13x32000.Slices ![8, 0] S1x32000
  slices_S13x32000_o9_0_S1x32000 : S13x32000.Slices ![9, 0] S1x32000
  slices_S13x32000_o10_0_S1x32000 : S13x32000.Slices ![10, 0] S1x32000
  slices_S13x32000_o11_0_S1x32000 : S13x32000.Slices ![11, 0] S1x32000
  slices_S13x32000_o12_0_S1x32000 : S13x32000.Slices ![12, 0] S1x32000
  shapeCasts_S32000_S1x32000 : S32000.ShapeCasts S1x32000
  concatenates_S1x32000_S1x32000_S1x32000_S1x32000_S1x32000_S1x32000_S1x32000_S1x32000_S1x32000_S1x32000_S1x32000_S1x32000_S1x32000_S1x32000_S1x32000_S1x32000_S1x32000_S1x32000_S1x32000_S1x32000_S1x32000_S21x32000_d0 : Shape.Concatenates [S1x32000, S1x32000, S1x32000, S1x32000, S1x32000, S1x32000, S1x32000, S1x32000, S1x32000, S1x32000, S1x32000, S1x32000, S1x32000, S1x32000, S1x32000, S1x32000, S1x32000, S1x32000, S1x32000, S1x32000, S1x32000] S21x32000 0
  inb_S21x32000_S21x32000_0_0 : ∀ a, (![0, 0] : Fin 2 → Nat) a + S21x32000.size a ≤ S21x32000.size a
  h_S21x32000 : 0 < S21x32000.numel
  slices_S21x4000000_S3x4000000_0_0 : S21x4000000.Slices ![0, 0] S3x4000000
  transposes_S3x4000000_S4000000x3_1_0 : S3x4000000.Transposes [1, 0] S4000000x3
  slices_S21x4000000_S3x4000000_3_0 : S21x4000000.Slices ![3, 0] S3x4000000
  slices_S21x4000000_S6x4000000_6_0 : S21x4000000.Slices ![6, 0] S6x4000000
  transposes_S6x4000000_S4000000x6_1_0 : S6x4000000.Transposes [1, 0] S4000000x6
  slices_S21x4000000_S6x4000000_12_0 : S21x4000000.Slices ![12, 0] S6x4000000
  slices_S21x4000000_S1x4000000_18_0 : S21x4000000.Slices ![18, 0] S1x4000000
  shapeCasts_S1x4000000_S4000000 : S1x4000000.ShapeCasts S4000000
  slices_S21x4000000_S1x4000000_19_0 : S21x4000000.Slices ![19, 0] S1x4000000
  slices_S21x4000000_S1x4000000_20_0 : S21x4000000.Slices ![20, 0] S1x4000000
  slices_S21x4000000_S1x4000000_8_0 : S21x4000000.Slices ![8, 0] S1x4000000
  slices_S21x4000000_S1x4000000_9_0 : S21x4000000.Slices ![9, 0] S1x4000000
  slices_S21x4000000_S1x4000000_10_0 : S21x4000000.Slices ![10, 0] S1x4000000
  slices_S21x4000000_S1x4000000_11_0 : S21x4000000.Slices ![11, 0] S1x4000000
  bcast_S_S1000000x3 : S_.BroadcastsInDim S1000000x3 (![] : Fin 0 → Fin S1000000x3.rank)
  gather_S1000000x3_S4000000x2_S4000000_n_01_n_n_01_1_11_wf : GatherDims.WF S1000000x3 S4000000x2 S4000000 [] [0, 1] [] [0, 1] [] 1 ![1, 1]
  scatter_S1000000x3_S4000000x1_S4000000x3_1_0_0_1_wf : ScatterDims.WF S1000000x3 S4000000x1 S4000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S13x32000.size a ≤ S13x4000000.size a
  hwx0_0 : ∀ i : grid0.Coords, EltTy.bits .f32 = 32 ∨ (Rect.block (s := S13x4000000) S13x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S21x32000.size a ≤ S21x4000000.size a
  hwx0_1 : ∀ i : grid0.Coords, EltTy.bits .f32 = 32 ∨ (Rect.block (s := S21x4000000) S21x32000.size (cc0_transform_1 i) (hinb0_1 i)).WholeWords (EltTy.packing .f32)

variable [Facts₀]

def gather_S1000000x3_S4000000x2_S4000000_n_01_n_n_01_1_11 : GatherDims S1000000x3 S4000000x2 S4000000 where
  offsetDims := []
  collapsedSliceDims := [0, 1]
  operandBatchingDims := []
  startIndicesBatchingDims := []
  startIndexMap := [0, 1]
  indexVectorDim := 1
  sliceSizes := ![1, 1]
  wf := gather_S1000000x3_S4000000x2_S4000000_n_01_n_n_01_1_11_wf
def scatter_S1000000x3_S4000000x1_S4000000x3_1_0_0_1 : ScatterDims S1000000x3 S4000000x1 S4000000x3 where
  updateWindowDims := [1]
  insertedWindowDims := [0]
  scatterDimsToOperandDims := [0]
  indexVectorDim := 1
  wf := scatter_S1000000x3_S4000000x1_S4000000x3_1_0_0_1_wf

abbrev win0_0 : Pipeline.Window sig grid0 :=
  Pipeline.Window.ofSpec (Memref.whole main_v127) S13x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v128) S21x32000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S4000000x2 : Shape := ⟨2, ![4000000, 2]⟩
abbrev S4000000 : Shape := ⟨1, ![4000000]⟩
abbrev S4000000x1 : Shape := ⟨2, ![4000000, 1]⟩
abbrev S_ : Shape := ⟨0, ![]⟩
abbrev S4000000x3 : Shape := ⟨2, ![4000000, 3]⟩
abbrev S4000000x6 : Shape := ⟨2, ![4000000, 6]⟩

abbrev nBuf : Space → Nat
  | .hbm => 298
  | .vmem => 0
  | .smem => 0
  | _ => 0

abbrev hbmTy0_0 (i : Nat) : BufTy := match i % 128 with
  | 0 => ⟨S1000000x3, .f32⟩
  | 1 => ⟨S4000000x2, .i32⟩
  | 2 => ⟨S1000000x3, .f32⟩
  | 3 => ⟨S4000000, .f32⟩
  | 4 => ⟨S4000000, .f32⟩
  | 5 => ⟨S4000000, .f32⟩
  | 6 => ⟨S4000000x1, .i32⟩
  | 7 => ⟨S4000000, .i32⟩
  | 8 => ⟨S4000000x1, .i32⟩
  | 9 => ⟨S4000000, .i32⟩
  | 10 => ⟨S_, .i32⟩
  | 11 => ⟨S4000000, .i32⟩
  | 12 => ⟨S4000000, .i1⟩
  | 13 => ⟨S_, .i32⟩
  | 14 => ⟨S4000000, .i32⟩
  | 15 => ⟨S4000000, .i32⟩
  | 16 => ⟨S4000000, .i32⟩
  | 17 => ⟨S_, .i32⟩
  | 18 => ⟨S4000000, .i32⟩
  | 19 => ⟨S4000000, .i32⟩
  | 20 => ⟨S4000000x1, .i32⟩
  | 21 => ⟨S4000000x1, .i32⟩
  | 22 => ⟨S4000000x2, .i32⟩
  | 23 => ⟨S4000000, .f32⟩
  | 24 => ⟨S_, .i32⟩
  | 25 => ⟨S4000000, .i32⟩
  | 26 => ⟨S4000000, .i1⟩
  | 27 => ⟨S_, .i32⟩
  | 28 => ⟨S4000000, .i32⟩
  | 29 => ⟨S4000000, .i32⟩
  | 30 => ⟨S4000000, .i32⟩
  | 31 => ⟨S_, .i32⟩
  | 32 => ⟨S4000000, .i32⟩
  | 33 => ⟨S4000000, .i32⟩
  | 34 => ⟨S4000000x1, .i32⟩
  | 35 => ⟨S4000000x1, .i32⟩
  | 36 => ⟨S4000000x2, .i32⟩
  | 37 => ⟨S4000000, .f32⟩
  | 38 => ⟨S4000000, .f32⟩
  | 39 => ⟨S_, .i32⟩
  | 40 => ⟨S4000000, .i32⟩
  | 41 => ⟨S4000000, .i1⟩
  | 42 => ⟨S_, .i32⟩
  | 43 => ⟨S4000000, .i32⟩
  | 44 => ⟨S4000000, .i32⟩
  | 45 => ⟨S4000000, .i32⟩
  | 46 => ⟨S_, .i32⟩
  | 47 => ⟨S4000000, .i32⟩
  | 48 => ⟨S4000000, .i32⟩
  | 49 => ⟨S4000000x1, .i32⟩
  | 50 => ⟨S4000000x1, .i32⟩
  | 51 => ⟨S4000000x2, .i32⟩
  | 52 => ⟨S4000000, .f32⟩
  | 53 => ⟨S_, .i32⟩
  | 54 => ⟨S4000000, .i32⟩
  | 55 => ⟨S4000000, .i1⟩
  | 56 => ⟨S_, .i32⟩
  | 57 => ⟨S4000000, .i32⟩
  | 58 => ⟨S4000000, .i32⟩
  | 59 => ⟨S4000000, .i32⟩
  | 60 => ⟨S_, .i32⟩
  | 61 => ⟨S4000000, .i32⟩
  | 62 => ⟨S4000000, .i32⟩
  | 63 => ⟨S4000000x1, .i32⟩
  | 64 => ⟨S4000000x1, .i32⟩
  | 65 => ⟨S4000000x2, .i32⟩
  | 66 => ⟨S4000000, .f32⟩
  | 67 => ⟨S4000000, .f32⟩
  | 68 => ⟨S4000000, .f32⟩
  | 69 => ⟨S4000000, .f32⟩
  | 70 => ⟨S4000000, .f32⟩
  | 71 => ⟨S4000000, .f32⟩
  | 72 => ⟨S4000000, .f32⟩
  | 73 => ⟨S4000000, .f32⟩
  | 74 => ⟨S4000000, .f32⟩
  | 75 => ⟨S4000000, .f32⟩
  | 76 => ⟨S_, .i32⟩
  | 77 => ⟨S4000000, .i32⟩
  | 78 => ⟨S4000000, .i1⟩
  | 79 => ⟨S_, .i32⟩
  | 80 => ⟨S4000000, .i32⟩
  | 81 => ⟨S4000000, .i32⟩
  | 82 => ⟨S4000000, .i32⟩
  | 83 => ⟨S_, .i32⟩
  | 84 => ⟨S4000000, .i32⟩
  | 85 => ⟨S4000000, .i32⟩
  | 86 => ⟨S4000000x1, .i32⟩
  | 87 => ⟨S4000000x1, .i32⟩
  | 88 => ⟨S4000000x2, .i32⟩
  | 89 => ⟨S4000000, .f32⟩
  | 90 => ⟨S_, .i32⟩
  | 91 => ⟨S4000000, .i32⟩
  | 92 => ⟨S4000000, .i1⟩
  | 93 => ⟨S_, .i32⟩
  | 94 => ⟨S4000000, .i32⟩
  | 95 => ⟨S4000000, .i32⟩
  | 96 => ⟨S4000000, .i32⟩
  | 97 => ⟨S_, .i32⟩
  | 98 => ⟨S4000000, .i32⟩
  | 99 => ⟨S4000000, .i32⟩
  | 100 => ⟨S4000000x1, .i32⟩
  | 101 => ⟨S4000000x1, .i32⟩
  | 102 => ⟨S4000000x2, .i32⟩
  | 103 => ⟨S4000000, .f32⟩
  | 104 => ⟨S_, .i32⟩
  | 105 => ⟨S4000000, .i32⟩
  | 106 => ⟨S4000000, .i1⟩
  | 107 => ⟨S_, .i32⟩
  | 108 => ⟨S4000000, .i32⟩
  | 109 => ⟨S4000000, .i32⟩
  | 110 => ⟨S4000000, .i32⟩
  | 111 => ⟨S_, .i32⟩
  | 112 => ⟨S4000000, .i32⟩
  | 113 => ⟨S4000000, .i32⟩
  | 114 => ⟨S4000000x1, .i32⟩
  | 115 => ⟨S4000000x1, .i32⟩
  | 116 => ⟨S4000000x2, .i32⟩
  | 117 => ⟨S4000000, .f32⟩
  | 118 => ⟨S_, .i32⟩
  | 119 => ⟨S4000000, .i32⟩
  | 120 => ⟨S4000000, .i1⟩
  | 121 => ⟨S_, .i32⟩
  | 122 => ⟨S4000000, .i32⟩
  | 123 => ⟨S4000000, .i32⟩
  | 124 => ⟨S4000000, .i32⟩
  | 125 => ⟨S_, .i32⟩
  | 126 => ⟨S4000000, .i32⟩
  | 127 => ⟨S4000000, .i32⟩
  | _ => ⟨S1000000x3, .f32⟩

abbrev hbmTy0_1 (i : Nat) : BufTy := match i % 128 with
  | 0 => ⟨S4000000x1, .i32⟩
  | 1 => ⟨S4000000x1, .i32⟩
  | 2 => ⟨S4000000x2, .i32⟩
  | 3 => ⟨S4000000, .f32⟩
  | 4 => ⟨S_, .i32⟩
  | 5 => ⟨S4000000, .i32⟩
  | 6 => ⟨S4000000, .i1⟩
  | 7 => ⟨S_, .i32⟩
  | 8 => ⟨S4000000, .i32⟩
  | 9 => ⟨S4000000, .i32⟩
  | 10 => ⟨S4000000, .i32⟩
  | 11 => ⟨S_, .i32⟩
  | 12 => ⟨S4000000, .i32⟩
  | 13 => ⟨S4000000, .i32⟩
  | 14 => ⟨S4000000x1, .i32⟩
  | 15 => ⟨S4000000x1, .i32⟩
  | 16 => ⟨S4000000x2, .i32⟩
  | 17 => ⟨S4000000, .f32⟩
  | 18 => ⟨S_, .i32⟩
  | 19 => ⟨S4000000, .i32⟩
  | 20 => ⟨S4000000, .i1⟩
  | 21 => ⟨S_, .i32⟩
  | 22 => ⟨S4000000, .i32⟩
  | 23 => ⟨S4000000, .i32⟩
  | 24 => ⟨S4000000, .i32⟩
  | 25 => ⟨S_, .i32⟩
  | 26 => ⟨S4000000, .i32⟩
  | 27 => ⟨S4000000, .i32⟩
  | 28 => ⟨S4000000x1, .i32⟩
  | 29 => ⟨S4000000x1, .i32⟩
  | 30 => ⟨S4000000x2, .i32⟩
  | 31 => ⟨S4000000, .f32⟩
  | 32 => ⟨S4000000, .f32⟩
  | 33 => ⟨S4000000, .f32⟩
  | 34 => ⟨S4000000, .f32⟩
  | 35 => ⟨S4000000, .f32⟩
  | 36 => ⟨S4000000, .f32⟩
  | 37 => ⟨S4000000, .f32⟩
  | 38 => ⟨S4000000, .f32⟩
  | 39 => ⟨S4000000, .f32⟩
  | 40 => ⟨S4000000, .f32⟩
  | 41 => ⟨S4000000, .f32⟩
  | 42 => ⟨S4000000, .f32⟩
  | 43 => ⟨S4000000, .f32⟩
  | 44 => ⟨S4000000, .f32⟩
  | 45 => ⟨S4000000, .f32⟩
  | 46 => ⟨S4000000, .f32⟩
  | 47 => ⟨S4000000, .f32⟩
  | 48 => ⟨S4000000, .f32⟩
  | 49 => ⟨S4000000, .f32⟩
  | 50 => ⟨S4000000, .f32⟩
  | 51 => ⟨S_, .f32⟩
  | 52 => ⟨S4000000, .f32⟩
  | 53 => ⟨S4000000, .f32⟩
  | 54 => ⟨S4000000, .f32⟩
  | 55 => ⟨S4000000, .f32⟩
  | 56 => ⟨S4000000, .f32⟩
  | 57 => ⟨S_, .f32⟩
  | 58 => ⟨S4000000, .f32⟩
  | 59 => ⟨S4000000, .f32⟩
  | 60 => ⟨S4000000, .f32⟩
  | 61 => ⟨S4000000, .f32⟩
  | 62 => ⟨S4000000, .f32⟩
  | 63 => ⟨S4000000, .f32⟩
  | 64 => ⟨S_, .f32⟩
  | 65 => ⟨S4000000, .f32⟩
  | 66 => ⟨S4000000, .f32⟩
  | 67 => ⟨S4000000, .f32⟩
  | 68 => ⟨S4000000, .f32⟩
  | 69 => ⟨S4000000, .f32⟩
  | 70 => ⟨S4000000, .f32⟩
  | 71 => ⟨S_, .f32⟩
  | 72 => ⟨S4000000, .f32⟩
  | 73 => ⟨S4000000, .f32⟩
  | 74 => ⟨S_, .f32⟩
  | 75 => ⟨S4000000, .f32⟩
  | 76 => ⟨S4000000, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S4000000, .f32⟩
  | 83 => ⟨S_, .f32⟩
  | 84 => ⟨S4000000, .f32⟩
  | 85 => ⟨S4000000, .f32⟩
  | 86 => ⟨S4000000, .f32⟩
  | 87 => ⟨S4000000, .f32⟩
  | 88 => ⟨S4000000, .f32⟩
  | 89 => ⟨S_, .f32⟩
  | 90 => ⟨S4000000, .f32⟩
  | 91 => ⟨S4000000, .f32⟩
  | 92 => ⟨S4000000, .f32⟩
  | 93 => ⟨S4000000, .f32⟩
  | 94 => ⟨S4000000, .f32⟩
  | 95 => ⟨S4000000, .f32⟩
  | 96 => ⟨S_, .f32⟩
  | 97 => ⟨S4000000, .f32⟩
  | 98 => ⟨S4000000, .f32⟩
  | 99 => ⟨S4000000, .f32⟩
  | 100 => ⟨S4000000, .f32⟩
  | 101 => ⟨S4000000, .f32⟩
  | 102 => ⟨S4000000, .f32⟩
  | 103 => ⟨S_, .f32⟩
  | 104 => ⟨S4000000, .f32⟩
  | 105 => ⟨S4000000, .f32⟩
  | 106 => ⟨S_, .f32⟩
  | 107 => ⟨S4000000, .f32⟩
  | 108 => ⟨S4000000, .f32⟩
  | 109 => ⟨S4000000, .f32⟩
  | 110 => ⟨S4000000, .f32⟩
  | 111 => ⟨S4000000, .f32⟩
  | 112 => ⟨S4000000, .f32⟩
  | 113 => ⟨S4000000, .f32⟩
  | 114 => ⟨S4000000, .f32⟩
  | 115 => ⟨S4000000, .f32⟩
  | 116 => ⟨S4000000, .f32⟩
  | 117 => ⟨S4000000, .f32⟩
  | 118 => ⟨S4000000x1, .f32⟩
  | 119 => ⟨S4000000x1, .f32⟩
  | 120 => ⟨S4000000x1, .f32⟩
  | 121 => ⟨S4000000x3, .f32⟩
  | 122 => ⟨S4000000, .f32⟩
  | 123 => ⟨S4000000, .f32⟩
  | 124 => ⟨S4000000, .f32⟩
  | 125 => ⟨S4000000, .f32⟩
  | 126 => ⟨S4000000, .f32⟩
  | 127 => ⟨S4000000, .f32⟩
  | _ => ⟨S1000000x3, .f32⟩

abbrev hbmTy0_2 (i : Nat) : BufTy := match i % 128 with
  | 0 => ⟨S4000000x1, .f32⟩
  | 1 => ⟨S4000000x1, .f32⟩
  | 2 => ⟨S4000000x1, .f32⟩
  | 3 => ⟨S4000000x3, .f32⟩
  | 4 => ⟨S_, .f32⟩
  | 5 => ⟨S1000000x3, .f32⟩
  | 6 => ⟨S_, .i32⟩
  | 7 => ⟨S4000000, .i32⟩
  | 8 => ⟨S4000000, .i1⟩
  | 9 => ⟨S_, .i32⟩
  | 10 => ⟨S4000000, .i32⟩
  | 11 => ⟨S4000000, .i32⟩
  | 12 => ⟨S4000000, .i32⟩
  | 13 => ⟨S4000000x1, .i32⟩
  | 14 => ⟨S1000000x3, .f32⟩
  | 15 => ⟨S_, .i32⟩
  | 16 => ⟨S4000000, .i32⟩
  | 17 => ⟨S4000000, .i1⟩
  | 18 => ⟨S_, .i32⟩
  | 19 => ⟨S4000000, .i32⟩
  | 20 => ⟨S4000000, .i32⟩
  | 21 => ⟨S4000000, .i32⟩
  | 22 => ⟨S4000000x1, .i32⟩
  | 23 => ⟨S1000000x3, .f32⟩
  | 24 => ⟨S4000000x1, .f32⟩
  | 25 => ⟨S4000000x1, .f32⟩
  | 26 => ⟨S4000000x1, .f32⟩
  | 27 => ⟨S4000000x1, .f32⟩
  | 28 => ⟨S4000000x1, .f32⟩
  | 29 => ⟨S4000000x1, .f32⟩
  | 30 => ⟨S4000000x6, .f32⟩
  | 31 => ⟨S4000000x1, .f32⟩
  | 32 => ⟨S4000000x1, .f32⟩
  | 33 => ⟨S4000000x1, .f32⟩
  | 34 => ⟨S4000000x1, .f32⟩
  | 35 => ⟨S4000000x1, .f32⟩
  | 36 => ⟨S4000000x1, .f32⟩
  | 37 => ⟨S4000000x6, .f32⟩
  | 38 => ⟨S4000000, .f32⟩
  | 39 => ⟨S_, .f32⟩
  | 40 => ⟨S4000000, .f32⟩
  | 41 => ⟨S4000000, .f32⟩
  | _ => ⟨S1000000x3, .f32⟩

abbrev hbmTy (i : Nat) : BufTy := match i / 128 with
  | 0 => hbmTy0_0 i
  | 1 => hbmTy0_1 i
  | 2 => hbmTy0_2 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_11 : Ref sig .tc := ⟨.hbm, 76, rfl⟩
abbrev main_v58 : Ref sig .tc := ⟨.hbm, 77, rfl⟩
abbrev main_v59 : Ref sig .tc := ⟨.hbm, 78, rfl⟩
abbrev main_c_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_14 : Ref sig .tc := ⟨.hbm, 90, rfl⟩
abbrev main_v69 : Ref sig .tc := ⟨.hbm, 91, rfl⟩
abbrev main_v70 : Ref sig .tc := ⟨.hbm, 92, rfl⟩
abbrev main_c_15 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_17 : Ref sig .tc := ⟨.hbm, 104, rfl⟩
abbrev main_v80 : Ref sig .tc := ⟨.hbm, 105, rfl⟩
abbrev main_v81 : Ref sig .tc := ⟨.hbm, 106, rfl⟩
abbrev main_c_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_19 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_20 : Ref sig .tc := ⟨.hbm, 118, rfl⟩
abbrev main_v91 : Ref sig .tc := ⟨.hbm, 119, rfl⟩
abbrev main_v92 : Ref sig .tc := ⟨.hbm, 120, rfl⟩
abbrev main_c_21 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_22 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_c_23 : Ref sig .tc := ⟨.hbm, 132, rfl⟩
abbrev main_v102 : Ref sig .tc := ⟨.hbm, 133, rfl⟩
abbrev main_v103 : Ref sig .tc := ⟨.hbm, 134, rfl⟩
abbrev main_c_24 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_c_25 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_c_26 : Ref sig .tc := ⟨.hbm, 146, rfl⟩
abbrev main_v113 : Ref sig .tc := ⟨.hbm, 147, rfl⟩
abbrev main_v114 : Ref sig .tc := ⟨.hbm, 148, rfl⟩
abbrev main_c_27 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_c_28 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_29 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_30 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_cst_31 : Ref sig .tc := ⟨.hbm, 199, rfl⟩
abbrev main_v160 : Ref sig .tc := ⟨.hbm, 200, rfl⟩
abbrev main_v161 : Ref sig .tc := ⟨.hbm, 201, rfl⟩
abbrev main_cst_32 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_33 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_cst_34 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_cst_35 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_cst_36 : Ref sig .tc := ⟨.hbm, 231, rfl⟩
abbrev main_v187 : Ref sig .tc := ⟨.hbm, 232, rfl⟩
abbrev main_v188 : Ref sig .tc := ⟨.hbm, 233, rfl⟩
abbrev main_cst_37 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_cst_38 : Ref sig .tc := ⟨.hbm, 260, rfl⟩
abbrev main_v214 : Ref sig .tc := ⟨.hbm, 261, rfl⟩
abbrev main_c_39 : Ref sig .tc := ⟨.hbm, 262, rfl⟩
abbrev main_v215 : Ref sig .tc := ⟨.hbm, 263, rfl⟩
abbrev main_v216 : Ref sig .tc := ⟨.hbm, 264, rfl⟩
abbrev main_c_40 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_c_41 : Ref sig .tc := ⟨.hbm, 271, rfl⟩
abbrev main_v222 : Ref sig .tc := ⟨.hbm, 272, rfl⟩
abbrev main_v223 : Ref sig .tc := ⟨.hbm, 273, rfl⟩
abbrev main_c_42 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_cst_43 : Ref sig .tc := ⟨.hbm, 295, rfl⟩
abbrev main_v244 : Ref sig .tc := ⟨.hbm, 296, rfl⟩
abbrev main_v245 : Ref sig .tc := ⟨.hbm, 297, rfl⟩

abbrev nD : Nat := 1
abbrev τ : Topo := Topo.v7x

variable {F : FTy → Type} [FloatOps F]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  concatenates_S4000000x1_S4000000x1_S4000000x1_S4000000x3_d1 : Shape.Concatenates [S4000000x1, S4000000x1, S4000000x1] S4000000x3 1
  bcast_S_S1000000x3 : S_.BroadcastsInDim S1000000x3 (![] : Fin 0 → Fin S1000000x3.rank)
  concatenates_S4000000x1_S4000000x1_S4000000x1_S4000000x1_S4000000x1_S4000000x1_S4000000x6_d1 : Shape.Concatenates [S4000000x1, S4000000x1, S4000000x1, S4000000x1, S4000000x1, S4000000x1] S4000000x6 1
  gather_S1000000x3_S4000000x2_S4000000_n_01_n_n_01_1_11_wf : GatherDims.WF S1000000x3 S4000000x2 S4000000 [] [0, 1] [] [0, 1] [] 1 ![1, 1]
  scatter_S1000000x3_S4000000x1_S4000000x3_1_0_0_1_wf : ScatterDims.WF S1000000x3 S4000000x1 S4000000x3 [1] [0] [0] 1

variable [Facts₀]

def gather_S1000000x3_S4000000x2_S4000000_n_01_n_n_01_1_11 : GatherDims S1000000x3 S4000000x2 S4000000 where
  offsetDims := []
  collapsedSliceDims := [0, 1]
  operandBatchingDims := []
  startIndicesBatchingDims := []
  startIndexMap := [0, 1]
  indexVectorDim := 1
  sliceSizes := ![1, 1]
  wf := gather_S1000000x3_S4000000x2_S4000000_n_01_n_n_01_1_11_wf
def scatter_S1000000x3_S4000000x1_S4000000x3_1_0_0_1 : ScatterDims S1000000x3 S4000000x1 S4000000x3 where
  updateWindowDims := [1]
  insertedWindowDims := [0]
  scatterDimsToOperandDims := [0]
  indexVectorDim := 1
  wf := scatter_S1000000x3_S4000000x1_S4000000x3_1_0_0_1_wf

class Facts : Prop extends Facts₀ where

variable [Facts]
-- ==== Proof.StoredK.lean ====
/-
  What the body of `Kernel`'s kernel stores into its output block, as one function of the input block it loaded.
  The printed body is cut into three parts that hand vectors to one another; this is their composition: the twelve
  vectors the first part computes from the loaded block, the eight the second computes from those, the last sum, and
  the twenty-one-row concatenation that is stored.
-/
import proofs.«416616_j12146167513831_4_alg».proof.Proof.Gen.Kernel.Skeleton

noncomputable section

namespace Cert.Kernel.Hand

open Idealize.ShloMosaic Idealize.SL.Sem Cert.Kernel Cert.Kernel.Gen

variable {F : FTy → Type} [FloatOps F]

/-- The stored block from the loaded block. -/
def stored (v0 : Vec F S13x32000 .f32) : FVec F S21x32000 .f32 :=
  k0_pay2 (k0_pay6 v0) (k0_pay9 v0) (k0_pay13 v0) (k0_pay14 v0) (k0_pay15 v0) (k0_pay18 v0) (k0_pay19 v0) (k0_pay20 v0) (k0_pay21 v0)
    (k0_pay24 (k0_pay13 v0) (k0_pay16 v0) (k0_pay18 v0) (k0_pay20 v0))
    (k0_pay25 (k0_pay6 v0) (k0_pay9 v0) (k0_pay13 v0) (k0_pay17 v0) (k0_pay19 v0) (k0_pay21 v0) (k0_pay22 v0))
    (k0_pay26 (k0_pay6 v0) (k0_pay9 v0) (k0_pay13 v0) (k0_pay17 v0) (k0_pay19 v0) (k0_pay21 v0) (k0_pay22 v0))
    (k0_pay27 (k0_pay13 v0) (k0_pay16 v0) (k0_pay18 v0) (k0_pay20 v0))
    (k0_pay28 (k0_pay6 v0) (k0_pay9 v0) (k0_pay13 v0) (k0_pay17 v0) (k0_pay19 v0) (k0_pay21 v0) (k0_pay22 v0))
    (k0_pay1 (k0_pay9 v0) (k0_pay29 (k0_pay17 v0) (k0_pay19 v0) (k0_pay21 v0) (k0_pay22 v0)) (k0_pay30 (k0_pay13 v0) (k0_pay17 v0))
      (k0_pay31 (k0_pay6 v0)) (Scalar.ofBits .f32 0x40800000#32))

end Cert.Kernel.Hand

end
-- ==== Proof.FrameK.lean ====
/-
  The frame of `Kernel`: the program runs to the end from any memory, faults nowhere, and leaves its six
  argument arrays as it found them; and, for the value claim, what its result buffers hold at the end.

  @main is 158 host operations (the node numbers cut out of the connectivity table, ten gathered
  columns, and one thirteen-row concatenation that packs them with the three property arrays), one
  pipelined region over 125 blocks of 32 000 elements, and 46 host operations after it (slices and
  transposes of the region's 21-row result, one subtraction and product, and two scatter-additions).
  The host operations are total functions of buffers, so they run whatever the integers in the
  connectivity table are.  The region's body loads its input block whole, computes, and stores its output
  block whole: at every point the output's staging buffer ends at one function (`stored`) of the input
  block, the input's staging buffer is untouched, and nothing else is used.  The pipeline library's run
  of such a region, continued by the host operations after it, then gives the final contents of every
  buffer: the region's result array block by block, every other buffer as the host operations compute it.
-/
import proofs.«416616_j12146167513831_4_alg».proof.Proof.Gen.Kernel.Launch
import proofs.«416616_j12146167513831_4_alg».proof.Proof.Gen.Kernel.Skeleton
import proofs.«416616_j12146167513831_4_alg».proof.Proof.Gen.Kernel.Points
import proofs.«416616_j12146167513831_4_alg».proof.Proof.StoredK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the host operations before the region. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result buffer, which is neither of the region's two arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- A buffer no host operation before the region writes is found as launched. -/
theorem V_of_unwritten (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using h))

/-- A buffer that is no region array and that no host operation after the region writes ends as the region found it. -/
theorem W_of_unwritten (dats : (p : Fin _) → (c : Dev nD) → Dat τ (Elt F) Unit ℕ (UR sig nD τ) ℕ (cfgs p) c) (c : Dev nD)
    (b : Ref sig .tc) (hb : ∀ w, Pipeline.arrRef spec0 w ≠ b)
    (h : (hostOps1 : List (HloOp τ sig (Elt F))).Forall fun op => Proc.devRef .tc b ∉ op.writes) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simpa only [List.flatten_cons, List.flatten_nil, List.append_nil] using h)),
    Pipeline.withArrays_of_ne _ c (V0 m c) _ b hb]

/-- No host operation writes argument 0: the region finds it, and the run leaves it, as launched. -/
theorem unwritten0_arg0 : (hostOps0 : List (HloOp τ sig (Elt F))).Forall fun op => Proc.devRef .tc main_arg0 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg0 : (hostOps1 : List (HloOp τ sig (Elt F))).Forall fun op => Proc.devRef .tc main_arg0 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_unwritten m dats c main_arg0 (by decide) unwritten1_arg0).trans (V_of_unwritten m c main_arg0 unwritten0_arg0)

/-- No host operation writes argument 1: the region finds it, and the run leaves it, as launched. -/
theorem unwritten0_arg1 : (hostOps0 : List (HloOp τ sig (Elt F))).Forall fun op => Proc.devRef .tc main_arg1 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg1 : (hostOps1 : List (HloOp τ sig (Elt F))).Forall fun op => Proc.devRef .tc main_arg1 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_unwritten m dats c main_arg1 (by decide) unwritten1_arg1).trans (V_of_unwritten m c main_arg1 unwritten0_arg1)

/-- No host operation writes argument 2: the region finds it, and the run leaves it, as launched. -/
theorem unwritten0_arg2 : (hostOps0 : List (HloOp τ sig (Elt F))).Forall fun op => Proc.devRef .tc main_arg2 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg2 : (hostOps1 : List (HloOp τ sig (Elt F))).Forall fun op => Proc.devRef .tc main_arg2 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_unwritten m dats c main_arg2 (by decide) unwritten1_arg2).trans (V_of_unwritten m c main_arg2 unwritten0_arg2)

/-- No host operation writes argument 3: the region finds it, and the run leaves it, as launched. -/
theorem unwritten0_arg3 : (hostOps0 : List (HloOp τ sig (Elt F))).Forall fun op => Proc.devRef .tc main_arg3 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg3 : (hostOps1 : List (HloOp τ sig (Elt F))).Forall fun op => Proc.devRef .tc main_arg3 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_unwritten m dats c main_arg3 (by decide) unwritten1_arg3).trans (V_of_unwritten m c main_arg3 unwritten0_arg3)

/-- No host operation writes argument 4: the region finds it, and the run leaves it, as launched. -/
theorem unwritten0_arg4 : (hostOps0 : List (HloOp τ sig (Elt F))).Forall fun op => Proc.devRef .tc main_arg4 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg4 : (hostOps1 : List (HloOp τ sig (Elt F))).Forall fun op => Proc.devRef .tc main_arg4 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_unwritten m dats c main_arg4 (by decide) unwritten1_arg4).trans (V_of_unwritten m c main_arg4 unwritten0_arg4)

/-- No host operation writes argument 5: the region finds it, and the run leaves it, as launched. -/
theorem unwritten0_arg5 : (hostOps0 : List (HloOp τ sig (Elt F))).Forall fun op => Proc.devRef .tc main_arg5 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg5 : (hostOps1 : List (HloOp τ sig (Elt F))).Forall fun op => Proc.devRef .tc main_arg5 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_unwritten m dats c main_arg5 (by decide) unwritten1_arg5).trans (V_of_unwritten m c main_arg5 unwritten0_arg5)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point, for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline run's -/

/-- From a run to the pipeline library's post (every region array at what the proof data says, every other unscoped
    buffer as the host operations after the region leave it), the six argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## The body -/

/-- The whole input block, as the body's one load names it, and the whole output block, as its one store does. -/
abbrev rIn : Rect S13x32000 := Rect.unit (s := S13x32000) ![0, 0] S13x32000.size inb_S13x32000_S13x32000_0_0
abbrev rOut : Rect S21x32000 := Rect.unit (s := S21x32000) ![0, 0] S21x32000.size inb_S21x32000_S21x32000_0_0

/-- The output's staging buffer after the body, from the input block: its one store, of `stored` of the loaded block. -/
def out0_1 (x0 : Vec F S13x32000 .f32) : Vec F S21x32000 .f32 :=
  View.canon [⟨rOut, stored (View.ld x0 rIn)⟩]

/-- The one store covers the buffer. -/
theorem cover0_1 (p0 : Vec F S21x32000 .f32) (y : S21x32000.Idx) :
    ∃ pc ∈ ([⟨rOut, p0⟩] : List (View.Piece (Elt F) S21x32000 .f32)), y ∈ pc.1.set :=
  View.cover_of_tiled [⟨rOut, p0⟩] S21x32000.size (by rfl) y

set_option maxHeartbeats 4000000 in
/-- The body on whole staging buffers, the input's at contents `x0` and the output's at anything, runs to the
    continuation holding the input's as it was and the output's at `out0_1 x0`. -/
theorem sound_kernel (c : Dev nD) (E : Set ℕ) (i : grid0.Coords) (arg1 : Memref sig .tc .vmem S13x32000 .f32) (harg1 : arg1.IsWhole)
    (arg2 : Memref sig .tc .vmem S21x32000 .f32) (harg2 : arg2.IsWhole)
    (x0 : Vec F S13x32000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__beam_kernel i arg1 harg1 arg2 harg2) K := by
  simp only [cc0__beam_kernel_eq_skeleton]; unfold cc0__beam_kernel_skel
  simp only [k0_part1_eq_skeleton, k0_part2_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- On core `c`: the arrays as the region finds them; after the body at point `t` the input's buffer at its block and
    the output's at `out0_1` of the input block; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, the region's two arrays at what the
    proof data says and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Hand

end
-- ==== Proof.StoredKI.lean ====
/-
  What the body of `KernelIdeal`'s kernel stores into its output block, as one function of the input block it loaded.
  The printed body is cut into three parts that hand vectors to one another; this is their composition: the twelve
  vectors the first part computes from the loaded block, the eight the second computes from those, the last sum, and
  the twenty-one-row concatenation that is stored.
-/
import proofs.«416616_j12146167513831_4_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The stored block from the loaded block. -/
def stored (v0 : Vec F S13x32000 .f32) : FVec F S21x32000 .f32 :=
  k0_pay2 (k0_pay6 v0) (k0_pay9 v0) (k0_pay13 v0) (k0_pay14 v0) (k0_pay15 v0) (k0_pay18 v0) (k0_pay19 v0) (k0_pay20 v0) (k0_pay21 v0)
    (k0_pay24 (k0_pay13 v0) (k0_pay16 v0) (k0_pay18 v0) (k0_pay20 v0))
    (k0_pay25 (k0_pay6 v0) (k0_pay9 v0) (k0_pay13 v0) (k0_pay17 v0) (k0_pay19 v0) (k0_pay21 v0) (k0_pay22 v0))
    (k0_pay26 (k0_pay6 v0) (k0_pay9 v0) (k0_pay13 v0) (k0_pay17 v0) (k0_pay19 v0) (k0_pay21 v0) (k0_pay22 v0))
    (k0_pay27 (k0_pay13 v0) (k0_pay16 v0) (k0_pay18 v0) (k0_pay20 v0))
    (k0_pay28 (k0_pay6 v0) (k0_pay9 v0) (k0_pay13 v0) (k0_pay17 v0) (k0_pay19 v0) (k0_pay21 v0) (k0_pay22 v0))
    (k0_pay1 (k0_pay9 v0) (k0_pay29 (k0_pay17 v0) (k0_pay19 v0) (k0_pay21 v0) (k0_pay22 v0)) (k0_pay30 (k0_pay13 v0) (k0_pay17 v0))
      (k0_pay31 (k0_pay6 v0)) (Scalar.ofBits .f32 0x40800000#32))

end Cert.KernelIdeal.Hand

end
-- ==== Proof.FrameKI.lean ====
/-
  The frame of `KernelIdeal`: the program runs to the end from any memory, faults nowhere, and leaves its six
  argument arrays as it found them; and, for the value claim, what its result buffers hold at the end.

  @main is 158 host operations (the node numbers cut out of the connectivity table, ten gathered
  columns, and one thirteen-row concatenation that packs them with the three property arrays), one
  pipelined region over 125 blocks of 32 000 elements, and 46 host operations after it (slices and
  transposes of the region's 21-row result, one subtraction and product, and two scatter-additions).
  The host operations are total functions of buffers, so they run whatever the integers in the
  connectivity table are.  The region's body loads its input block whole, computes, and stores its output
  block whole: at every point the output's staging buffer ends at one function (`stored`) of the input
  block, the input's staging buffer is untouched, and nothing else is used.  The pipeline library's run
  of such a region, continued by the host operations after it, then gives the final contents of every
  buffer: the region's result array block by block, every other buffer as the host operations compute it.
-/
import proofs.«416616_j12146167513831_4_alg».proof.Proof.Gen.KernelIdeal.Launch
import proofs.«416616_j12146167513831_4_alg».proof.Proof.Gen.KernelIdeal.Skeleton
import proofs.«416616_j12146167513831_4_alg».proof.Proof.Gen.KernelIdeal.Points
import proofs.«416616_j12146167513831_4_alg».proof.Proof.StoredKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the host operations before the region. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result buffer, which is neither of the region's two arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- A buffer no host operation before the region writes is found as launched. -/
theorem V_of_unwritten (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using h))

/-- A buffer that is no region array and that no host operation after the region writes ends as the region found it. -/
theorem W_of_unwritten (dats : (p : Fin _) → (c : Dev nD) → Dat τ (Elt F) Unit ℕ (UR sig nD τ) ℕ (cfgs p) c) (c : Dev nD)
    (b : Ref sig .tc) (hb : ∀ w, Pipeline.arrRef spec0 w ≠ b)
    (h : (hostOps1 : List (HloOp τ sig (Elt F))).Forall fun op => Proc.devRef .tc b ∉ op.writes) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simpa only [List.flatten_cons, List.flatten_nil, List.append_nil] using h)),
    Pipeline.withArrays_of_ne _ c (V0 m c) _ b hb]

/-- No host operation writes argument 0: the region finds it, and the run leaves it, as launched. -/
theorem unwritten0_arg0 : (hostOps0 : List (HloOp τ sig (Elt F))).Forall fun op => Proc.devRef .tc main_arg0 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg0 : (hostOps1 : List (HloOp τ sig (Elt F))).Forall fun op => Proc.devRef .tc main_arg0 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_unwritten m dats c main_arg0 (by decide) unwritten1_arg0).trans (V_of_unwritten m c main_arg0 unwritten0_arg0)

/-- No host operation writes argument 1: the region finds it, and the run leaves it, as launched. -/
theorem unwritten0_arg1 : (hostOps0 : List (HloOp τ sig (Elt F))).Forall fun op => Proc.devRef .tc main_arg1 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg1 : (hostOps1 : List (HloOp τ sig (Elt F))).Forall fun op => Proc.devRef .tc main_arg1 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_unwritten m dats c main_arg1 (by decide) unwritten1_arg1).trans (V_of_unwritten m c main_arg1 unwritten0_arg1)

/-- No host operation writes argument 2: the region finds it, and the run leaves it, as launched. -/
theorem unwritten0_arg2 : (hostOps0 : List (HloOp τ sig (Elt F))).Forall fun op => Proc.devRef .tc main_arg2 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg2 : (hostOps1 : List (HloOp τ sig (Elt F))).Forall fun op => Proc.devRef .tc main_arg2 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_unwritten m dats c main_arg2 (by decide) unwritten1_arg2).trans (V_of_unwritten m c main_arg2 unwritten0_arg2)

/-- No host operation writes argument 3: the region finds it, and the run leaves it, as launched. -/
theorem unwritten0_arg3 : (hostOps0 : List (HloOp τ sig (Elt F))).Forall fun op => Proc.devRef .tc main_arg3 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg3 : (hostOps1 : List (HloOp τ sig (Elt F))).Forall fun op => Proc.devRef .tc main_arg3 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_unwritten m dats c main_arg3 (by decide) unwritten1_arg3).trans (V_of_unwritten m c main_arg3 unwritten0_arg3)

/-- No host operation writes argument 4: the region finds it, and the run leaves it, as launched. -/
theorem unwritten0_arg4 : (hostOps0 : List (HloOp τ sig (Elt F))).Forall fun op => Proc.devRef .tc main_arg4 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg4 : (hostOps1 : List (HloOp τ sig (Elt F))).Forall fun op => Proc.devRef .tc main_arg4 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_unwritten m dats c main_arg4 (by decide) unwritten1_arg4).trans (V_of_unwritten m c main_arg4 unwritten0_arg4)

/-- No host operation writes argument 5: the region finds it, and the run leaves it, as launched. -/
theorem unwritten0_arg5 : (hostOps0 : List (HloOp τ sig (Elt F))).Forall fun op => Proc.devRef .tc main_arg5 ∉ op.writes := by
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem unwritten1_arg5 : (hostOps1 : List (HloOp τ sig (Elt F))).Forall fun op => Proc.devRef .tc main_arg5 ∉ op.writes := by
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_unwritten m dats c main_arg5 (by decide) unwritten1_arg5).trans (V_of_unwritten m c main_arg5 unwritten0_arg5)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point, for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline run's -/

/-- From a run to the pipeline library's post (every region array at what the proof data says, every other unscoped
    buffer as the host operations after the region leave it), the six argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## The body -/

/-- The whole input block, as the body's one load names it, and the whole output block, as its one store does. -/
abbrev rIn : Rect S13x32000 := Rect.unit (s := S13x32000) ![0, 0] S13x32000.size inb_S13x32000_S13x32000_0_0
abbrev rOut : Rect S21x32000 := Rect.unit (s := S21x32000) ![0, 0] S21x32000.size inb_S21x32000_S21x32000_0_0

/-- The output's staging buffer after the body, from the input block: its one store, of `stored` of the loaded block. -/
def out0_1 (x0 : Vec F S13x32000 .f32) : Vec F S21x32000 .f32 :=
  View.canon [⟨rOut, stored (View.ld x0 rIn)⟩]

/-- The one store covers the buffer. -/
theorem cover0_1 (p0 : Vec F S21x32000 .f32) (y : S21x32000.Idx) :
    ∃ pc ∈ ([⟨rOut, p0⟩] : List (View.Piece (Elt F) S21x32000 .f32)), y ∈ pc.1.set :=
  View.cover_of_tiled [⟨rOut, p0⟩] S21x32000.size (by rfl) y

set_option maxHeartbeats 4000000 in
/-- The body on whole staging buffers, the input's at contents `x0` and the output's at anything, runs to the
    continuation holding the input's as it was and the output's at `out0_1 x0`. -/
theorem sound_kernel (c : Dev nD) (E : Set ℕ) (i : grid0.Coords) (arg1 : Memref sig .tc .vmem S13x32000 .f32) (harg1 : arg1.IsWhole)
    (arg2 : Memref sig .tc .vmem S21x32000 .f32) (harg2 : arg2.IsWhole)
    (x0 : Vec F S13x32000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__beam_kernel i arg1 harg1 arg2 harg2) K := by
  simp only [cc0__beam_kernel_eq_skeleton]; unfold cc0__beam_kernel_skel
  simp only [k0_part1_eq_skeleton, k0_part2_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- On core `c`: the arrays as the region finds them; after the body at point `t` the input's buffer at its block and
    the output's at `out0_1` of the input block; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, the region's two arrays at what the
    proof data says and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Hand

end
-- ==== Proof.Beam.lean ====
/-
  One beam element as a function of thirteen extended reals.

  An element joins node A to node B in the x-z plane.  Its thirteen numbers are, in order: the
  coordinates (xA, zA, xB, zB); node A's displacements (ux, uz, θ); node B's (ux, uz, θ); and the section's
  E, A, I.  From them: the undeformed chord (dx0, dz0), its length l0 = √(dx0² + dz0²), the direction
  cosines c = dx0 / l0 and s = dz0 / l0, the axial and bending stiffnesses EA = E·A and EI = E·I, the end
  displacements turned into the element's frame (ua, wa, ub, wb), the six end forces of an
  Euler–Bernoulli beam (f0 … f5), and the two ends' forces turned back to the global frame.
  Every operation is the extended reals' own (sums, differences, products; the quotient and the root
  with the conventions of the ideal reading of floats), written in exactly the order and grouping both
  programs use, so that no algebraic law is needed to recognise either of them here: only 0 - s = -s and
  x / 2 = x · ½.
-/
import Idealize.ShloMosaic.PureOps.Ideal

noncomputable section

namespace Cert.Beam

open Idealize.ShloMosaic

/-- The thirteen numbers of one element. -/
abbrev In := Fin 13 → EReal

/-- The float literals both programs spell: 12, 6, 4, 2 and ½. -/
def k12 : EReal := Ideal.ofBits .f32 0x41400000#32
def k6 : EReal := Ideal.ofBits .f32 0x40C00000#32
def k4 : EReal := Ideal.ofBits .f32 0x40800000#32
def k2 : EReal := Ideal.ofBits .f32 0x40000000#32
def half : EReal := Ideal.ofBits .f32 0x3F000000#32

def dx0 (p : In) : EReal := p 2 - p 0
def dz0 (p : In) : EReal := p 3 - p 1
def l0 (p : In) : EReal := Ideal.sqrt (dx0 p * dx0 p + dz0 p * dz0 p)
def c (p : In) : EReal := Ideal.div (dx0 p) (l0 p)
def s (p : In) : EReal := Ideal.div (dz0 p) (l0 p)
def EA (p : In) : EReal := p 10 * p 11
def EI (p : In) : EReal := p 10 * p 12
def ua (p : In) : EReal := c p * p 4 + s p * p 5
def wa (p : In) : EReal := -(s p) * p 4 + c p * p 5
def ub (p : In) : EReal := c p * p 7 + s p * p 8
def wb (p : In) : EReal := -(s p) * p 7 + c p * p 8
def L2 (p : In) : EReal := l0 p * l0 p
def L3 (p : In) : EReal := L2 p * l0 p
def f0 (p : In) : EReal := Ideal.div (EA p) (l0 p) * (ua p - ub p)
def f1 (p : In) : EReal :=
  Ideal.div (k12 * EI p) (L3 p) * (wa p - wb p) + Ideal.div (k6 * EI p) (L2 p) * (p 6 + p 9)
def f2 (p : In) : EReal :=
  Ideal.div (k6 * EI p) (L2 p) * (wa p - wb p) + Ideal.div (EI p) (l0 p) * (k4 * p 6 + k2 * p 9)
def f3 (p : In) : EReal := Ideal.div (EA p) (l0 p) * (ub p - ua p)
def f4 (p : In) : EReal :=
  Ideal.div (k12 * EI p) (L3 p) * (wb p - wa p) - Ideal.div (k6 * EI p) (L2 p) * (p 6 + p 9)
def f5 (p : In) : EReal :=
  Ideal.div (k6 * EI p) (L2 p) * (wa p - wb p) + Ideal.div (EI p) (l0 p) * (k2 * p 6 + k4 * p 9)
def FgAx (p : In) : EReal := c p * f0 p - s p * f1 p
def FgAz (p : In) : EReal := s p * f0 p + c p * f1 p
def FgBx (p : In) : EReal := c p * f3 p - s p * f4 p
def FgBz (p : In) : EReal := s p * f3 p + c p * f4 p
/-- The bending moment at mid-span. -/
def mid (p : In) : EReal := (f5 p - f2 p) * half

/-- The twenty-one rows the kernel writes per element: node A's global force (x, z, moment), node B's,
    the six local end forces, the six local end displacements, then l0, c, s. -/
def row : Fin 21 → In → EReal
  | 0 => FgAx | 1 => FgAz | 2 => f2 | 3 => FgBx | 4 => FgBz | 5 => f5
  | 6 => f0 | 7 => f1 | 8 => f2 | 9 => f3 | 10 => f4 | 11 => f5
  | 12 => ua | 13 => wa | 14 => fun p => p 6 | 15 => ub | 16 => wb | 17 => fun p => p 9
  | 18 => l0 | 19 => c | 20 => s
  | ⟨_ + 21, h⟩ => absurd h (by omega)

end Cert.Beam

end
-- ==== Proof.BodyValue.lean ====
/-
  The kernel's stored block, one entry at a time: row r, lane e of what the body stores is row r of the beam at the
  thirteen entries of lane e of the block it loaded.

  The road: each row of the loaded block, cut out and flattened, read at lane e is the block's entry there; every
  vector the body computes is pointwise in the vectors before it, so read at lane e it is the corresponding scalar
  of the beam at the lane's thirteen entries (the only law used: 0 - s = -s); the stored block stacks twenty-one
  such vectors, each given a leading unit axis, so row r of the stack at lane e is the r-th vector at e.
-/
import proofs.«416616_j12146167513831_4_alg».proof.Proof.StoredKI
import proofs.«416616_j12146167513831_4_alg».proof.Proof.Beam
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen

/-! ## The vocabulary -/

/-- The thirteen entries of lane `e` of a block. -/
abbrev lane (v0 : Vec Ideal S13x32000 .f32) (e : Fin 32000) : Cert.Beam.In := fun k => v0 (ix2 k e)

/-- A square root at an index is the root of the element. -/
theorem sqrt_apply {s : Shape} {φ : FTy} (a : FVec Ideal s φ) (i : s.Idx) : sqrt a i = Ideal.sqrt (a i) := rfl

/-! ## The rows of the loaded block -/

/-- The loaded block cast to its own shape is itself. -/
theorem pay3_eq (v0 : Vec Ideal S13x32000 .f32) : k0_pay3 (F := Ideal) v0 = v0 :=
  shapeCast_self v0 _

/-- Row `k` of a thirteen-row block, cut out and flattened, read at lane `e`. -/
theorem row_apply (o : Nat) (X : FVec Ideal S13x32000 .f32) (h : S13x32000.Slices ![o, 0] S1x32000)
    (hc : S1x32000.ShapeCasts S32000) (e : Fin 32000) (k : Fin 13) (hk : k.val = o) :
    shapeCast S32000 (extractStridedSlice S1x32000 ![o, 0] X h) hc (ix1 e) = X (ix2 k e) :=
  (shapeCast_1a_a_apply _ hc e).trans (slice2_axis0_apply o X h (0 : Fin 1) e k (by simp [hk]))

/-- The same of the block as the body names it. -/
theorem row3_apply (o : Nat) (v0 : Vec Ideal S13x32000 .f32) (h : S13x32000.Slices ![o, 0] S1x32000)
    (hc : S1x32000.ShapeCasts S32000) (e : Fin 32000) (k : Fin 13) (hk : k.val = o) :
    shapeCast S32000 (extractStridedSlice S1x32000 ![o, 0] (k0_pay3 (F := Ideal) v0) h) hc (ix1 e) = lane v0 e k :=
  (row_apply o (k0_pay3 (F := Ideal) v0) h hc e k hk).trans (congrFun (pay3_eq v0) (ix2 k e))

section Rows
variable (v0 : Vec Ideal S13x32000 .f32) (e : Fin 32000)

theorem pay4_apply : k0_pay4 (F := Ideal) v0 (ix1 e) = lane v0 e 4 := row3_apply 4 v0 _ _ e 4 rfl
theorem pay5_apply : k0_pay5 (F := Ideal) v0 (ix1 e) = lane v0 e 5 := row3_apply 5 v0 _ _ e 5 rfl
theorem pay6_apply : k0_pay6 (F := Ideal) v0 (ix1 e) = lane v0 e 6 := row3_apply 6 v0 _ _ e 6 rfl
theorem pay7_apply : k0_pay7 (F := Ideal) v0 (ix1 e) = lane v0 e 7 := row3_apply 7 v0 _ _ e 7 rfl
theorem pay8_apply : k0_pay8 (F := Ideal) v0 (ix1 e) = lane v0 e 8 := row3_apply 8 v0 _ _ e 8 rfl
theorem pay9_apply : k0_pay9 (F := Ideal) v0 (ix1 e) = lane v0 e 9 := row3_apply 9 v0 _ _ e 9 rfl
theorem pay10_apply : k0_pay10 (F := Ideal) v0 (ix1 e) = lane v0 e 10 := row3_apply 10 v0 _ _ e 10 rfl

/-! ## The first part's vectors: geometry, stiffnesses, local displacements -/

theorem pay11_apply : k0_pay11 (F := Ideal) v0 (ix1 e) = Cert.Beam.dx0 (lane v0 e) :=
  congrArg₂ (· - ·) (row3_apply 2 v0 _ _ e 2 rfl) (row3_apply 0 v0 _ _ e 0 rfl)

theorem pay12_apply : k0_pay12 (F := Ideal) v0 (ix1 e) = Cert.Beam.dz0 (lane v0 e) :=
  congrArg₂ (· - ·) (row3_apply 3 v0 _ _ e 3 rfl) (row3_apply 1 v0 _ _ e 1 rfl)

theorem pay13_apply : k0_pay13 (F := Ideal) v0 (ix1 e) = Cert.Beam.l0 (lane v0 e) := by
  have h : k0_pay13 (F := Ideal) v0 (ix1 e)
      = Ideal.sqrt (k0_pay11 (F := Ideal) v0 (ix1 e) * k0_pay11 (F := Ideal) v0 (ix1 e)
          + k0_pay12 (F := Ideal) v0 (ix1 e) * k0_pay12 (F := Ideal) v0 (ix1 e)) := rfl
  rw [h, pay11_apply, pay12_apply]; rfl

theorem pay14_apply : k0_pay14 (F := Ideal) v0 (ix1 e) = Cert.Beam.c (lane v0 e) := by
  have h : k0_pay14 (F := Ideal) v0 (ix1 e)
      = Ideal.div (k0_pay11 (F := Ideal) v0 (ix1 e)) (k0_pay13 (F := Ideal) v0 (ix1 e)) := rfl
  rw [h, pay11_apply, pay13_apply]; rfl

theorem pay15_apply : k0_pay15 (F := Ideal) v0 (ix1 e) = Cert.Beam.s (lane v0 e) := by
  have h : k0_pay15 (F := Ideal) v0 (ix1 e)
      = Ideal.div (k0_pay12 (F := Ideal) v0 (ix1 e)) (k0_pay13 (F := Ideal) v0 (ix1 e)) := rfl
  rw [h, pay12_apply, pay13_apply]; rfl

theorem pay16_apply : k0_pay16 (F := Ideal) v0 (ix1 e) = Cert.Beam.EA (lane v0 e) :=
  congrArg₂ (· * ·) (pay10_apply v0 e) (row3_apply 11 v0 _ _ e 11 rfl)

theorem pay17_apply : k0_pay17 (F := Ideal) v0 (ix1 e) = Cert.Beam.EI (lane v0 e) :=
  congrArg₂ (· * ·) (pay10_apply v0 e) (row3_apply 12 v0 _ _ e 12 rfl)

theorem pay18_apply : k0_pay18 (F := Ideal) v0 (ix1 e) = Cert.Beam.ua (lane v0 e) := by
  have h : k0_pay18 (F := Ideal) v0 (ix1 e)
      = k0_pay14 (F := Ideal) v0 (ix1 e) * k0_pay4 (F := Ideal) v0 (ix1 e)
        + k0_pay15 (F := Ideal) v0 (ix1 e) * k0_pay5 (F := Ideal) v0 (ix1 e) := rfl
  rw [h, pay14_apply, pay4_apply, pay15_apply, pay5_apply]; rfl

/-- The kernel spells `-s` as `0 - s`. -/
theorem pay19_apply : k0_pay19 (F := Ideal) v0 (ix1 e) = Cert.Beam.wa (lane v0 e) := by
  have h : k0_pay19 (F := Ideal) v0 (ix1 e)
      = (Ideal.ofBits .f32 0x00000000#32 - k0_pay15 (F := Ideal) v0 (ix1 e)) * k0_pay4 (F := Ideal) v0 (ix1 e)
        + k0_pay14 (F := Ideal) v0 (ix1 e) * k0_pay5 (F := Ideal) v0 (ix1 e) := rfl
  rw [h, Ideal.ofBits_zero_f32, zero_sub, pay14_apply, pay4_apply, pay15_apply, pay5_apply]; rfl

theorem pay20_apply : k0_pay20 (F := Ideal) v0 (ix1 e) = Cert.Beam.ub (lane v0 e) := by
  have h : k0_pay20 (F := Ideal) v0 (ix1 e)
      = k0_pay14 (F := Ideal) v0 (ix1 e) * k0_pay7 (F := Ideal) v0 (ix1 e)
        + k0_pay15 (F := Ideal) v0 (ix1 e) * k0_pay8 (F := Ideal) v0 (ix1 e) := rfl
  rw [h, pay14_apply, pay7_apply, pay15_apply, pay8_apply]; rfl

theorem pay21_apply : k0_pay21 (F := Ideal) v0 (ix1 e) = Cert.Beam.wb (lane v0 e) := by
  have h : k0_pay21 (F := Ideal) v0 (ix1 e)
      = (Ideal.ofBits .f32 0x00000000#32 - k0_pay15 (F := Ideal) v0 (ix1 e)) * k0_pay7 (F := Ideal) v0 (ix1 e)
        + k0_pay14 (F := Ideal) v0 (ix1 e) * k0_pay8 (F := Ideal) v0 (ix1 e) := rfl
  rw [h, Ideal.ofBits_zero_f32, zero_sub, pay14_apply, pay7_apply, pay15_apply, pay8_apply]; rfl

theorem pay22_apply : k0_pay22 (F := Ideal) v0 (ix1 e) = Cert.Beam.L2 (lane v0 e) := by
  have h : k0_pay22 (F := Ideal) v0 (ix1 e)
      = k0_pay13 (F := Ideal) v0 (ix1 e) * k0_pay13 (F := Ideal) v0 (ix1 e) := rfl
  rw [h, pay13_apply]; rfl

end Rows

/-! ## The second part's vectors, pointwise in the vectors they are handed -/

section Pointwise
variable (v15 v21 v33 v36 v37 v40 v45 v48 v53 v54 v101 v102 v104 : FVec Ideal S32000 .f32) (j : S32000.Idx)

theorem pay23_at : k0_pay23 (F := Ideal) v33 v54 j = v54 j * v33 j := rfl

theorem pay24_at : k0_pay24 (F := Ideal) v33 v36 v40 v48 j = Ideal.div (v36 j) (v33 j) * (v40 j - v48 j) := rfl

theorem pay25_at : k0_pay25 (F := Ideal) v15 v21 v33 v37 v45 v53 v54 j
    = Ideal.div (Cert.Beam.k12 * v37 j) (v54 j * v33 j) * (v45 j - v53 j)
      + Ideal.div (Cert.Beam.k6 * v37 j) (v54 j) * (v15 j + v21 j) := rfl

theorem pay26_at : k0_pay26 (F := Ideal) v15 v21 v33 v37 v45 v53 v54 j
    = Ideal.div (Cert.Beam.k6 * v37 j) (v54 j) * (v45 j - v53 j)
      + Ideal.div (v37 j) (v33 j) * (Cert.Beam.k4 * v15 j + Cert.Beam.k2 * v21 j) := rfl

theorem pay27_at : k0_pay27 (F := Ideal) v33 v36 v40 v48 j = Ideal.div (v36 j) (v33 j) * (v48 j - v40 j) := rfl

theorem pay28_at : k0_pay28 (F := Ideal) v15 v21 v33 v37 v45 v53 v54 j
    = Ideal.div (Cert.Beam.k12 * v37 j) (v54 j * v33 j) * (v53 j - v45 j)
      - Ideal.div (Cert.Beam.k6 * v37 j) (v54 j) * (v15 j + v21 j) := rfl

theorem pay29_at : k0_pay29 (F := Ideal) v37 v45 v53 v54 j
    = Ideal.div (Cert.Beam.k6 * v37 j) (v54 j) * (v45 j - v53 j) := rfl

theorem pay30_at : k0_pay30 (F := Ideal) v33 v37 j = Ideal.div (v37 j) (v33 j) := rfl

theorem pay31_at : k0_pay31 (F := Ideal) v15 j = Cert.Beam.k2 * v15 j := rfl

theorem pay1_at : k0_pay1 (F := Ideal) v21 v101 v102 v104 (Scalar.ofBits .f32 0x40800000#32) j
    = v101 j + v102 j * (v104 j + Cert.Beam.k4 * v21 j) := rfl

end Pointwise

/-! ## The six local end forces at a lane -/

section Forces
variable (v0 : Vec Ideal S13x32000 .f32) (e : Fin 32000)

theorem f0_apply :
    k0_pay24 (F := Ideal) (k0_pay13 v0) (k0_pay16 v0) (k0_pay18 v0) (k0_pay20 v0) (ix1 e) = Cert.Beam.f0 (lane v0 e) := by
  rw [pay24_at, pay13_apply, pay16_apply, pay18_apply, pay20_apply]; rfl

theorem f1_apply :
    k0_pay25 (F := Ideal) (k0_pay6 v0) (k0_pay9 v0) (k0_pay13 v0) (k0_pay17 v0) (k0_pay19 v0) (k0_pay21 v0) (k0_pay22 v0) (ix1 e)
      = Cert.Beam.f1 (lane v0 e) := by
  rw [pay25_at, pay6_apply, pay9_apply, pay13_apply, pay17_apply, pay19_apply, pay21_apply, pay22_apply]; rfl

theorem f2_apply :
    k0_pay26 (F := Ideal) (k0_pay6 v0) (k0_pay9 v0) (k0_pay13 v0) (k0_pay17 v0) (k0_pay19 v0) (k0_pay21 v0) (k0_pay22 v0) (ix1 e)
      = Cert.Beam.f2 (lane v0 e) := by
  rw [pay26_at, pay6_apply, pay9_apply, pay13_apply, pay17_apply, pay19_apply, pay21_apply, pay22_apply]; rfl

theorem f3_apply :
    k0_pay27 (F := Ideal) (k0_pay13 v0) (k0_pay16 v0) (k0_pay18 v0) (k0_pay20 v0) (ix1 e) = Cert.Beam.f3 (lane v0 e) := by
  rw [pay27_at, pay13_apply, pay16_apply, pay18_apply, pay20_apply]; rfl

theorem f4_apply :
    k0_pay28 (F := Ideal) (k0_pay6 v0) (k0_pay9 v0) (k0_pay13 v0) (k0_pay17 v0) (k0_pay19 v0) (k0_pay21 v0) (k0_pay22 v0) (ix1 e)
      = Cert.Beam.f4 (lane v0 e) := by
  rw [pay28_at, pay6_apply, pay9_apply, pay13_apply, pay17_apply, pay19_apply, pay21_apply, pay22_apply]; rfl

theorem f5_apply :
    k0_pay1 (F := Ideal) (k0_pay9 v0) (k0_pay29 (k0_pay17 v0) (k0_pay19 v0) (k0_pay21 v0) (k0_pay22 v0))
        (k0_pay30 (k0_pay13 v0) (k0_pay17 v0)) (k0_pay31 (k0_pay6 v0)) (Scalar.ofBits .f32 0x40800000#32) (ix1 e)
      = Cert.Beam.f5 (lane v0 e) := by
  rw [pay1_at, pay29_at, pay30_at, pay31_at, pay6_apply, pay9_apply, pay13_apply, pay17_apply, pay19_apply, pay21_apply,
    pay22_apply]; rfl

end Forces

/-! ## The stored block: twenty-one flattened rows stacked -/

/-- Piece `k` of a stack of twenty-one one-row pieces, each a vector given a leading unit axis, read at row `k`,
    lane `e`: the vector at `e`. The pieces before it are one row each, so `k` rows precede it. -/
theorem piece_apply (xs : List ((s : Shape) × (s.Idx → EReal)))
    (h : Shape.Concatenates (xs.map (·.1)) S21x32000 0) (hall : xs.map (·.1) = List.replicate 21 S1x32000)
    (k : Nat) (hk21 : k < 21) (x : FVec Ideal S32000 .f32) (hc : S32000.ShapeCasts S1x32000)
    (hxk : xs[k]? = some ⟨S1x32000, shapeCast S1x32000 x hc⟩) (e : Fin 32000) :
    concatenate S21x32000 0 xs h (ix2 (⟨k, hk21⟩ : Fin 21) e) = x (ix1 e) := by
  obtain ⟨hk, hxk'⟩ := List.getElem?_eq_some_iff.1 hxk
  have hpre : (((xs.take k).map (·.1)).map fun s =>
      if h : s.rank = S21x32000.rank then s.size ((0 : Fin S21x32000.rank).cast h.symm) else 0).sum = k := by
    rw [List.map_take, hall, List.take_replicate, List.map_replicate, List.sum_replicate, smul_eq_mul]
    show min k 21 * 1 = k
    omega
  exact (concatenate_apply_piece (0 : Fin S21x32000.rank) xs h (ix2 (⟨k, hk21⟩ : Fin 21) e) k hk S1x32000 _ hxk' rfl k hpre
    (ix2 (0 : Fin 1) e)
    (fun b hb => by
      match b with
      | ⟨0, _⟩ => exact absurd rfl hb
      | ⟨1, _⟩ => rfl)
    rfl).trans (shapeCast_a_1a_apply x hc 0 e)

section Stack
variable {v15 v21 v33 v34 v35 v40 v45 v48 v53 v58 v69 v82 v85 v96 v109 : FVec Ideal S32000 .f32} (e : Fin 32000)

theorem pay2_row0 :
    k0_pay2 (F := Ideal) v15 v21 v33 v34 v35 v40 v45 v48 v53 v58 v69 v82 v85 v96 v109 (ix2 (⟨0, by omega⟩ : Fin 21) e) = v34 (ix1 e) * v58 (ix1 e) - v35 (ix1 e) * v69 (ix1 e) := by
  unfold k0_pay2
  exact (piece_apply _ _ rfl 0 (by omega) _ _ rfl e).trans rfl

theorem pay2_row1 :
    k0_pay2 (F := Ideal) v15 v21 v33 v34 v35 v40 v45 v48 v53 v58 v69 v82 v85 v96 v109 (ix2 (⟨1, by omega⟩ : Fin 21) e) = v35 (ix1 e) * v58 (ix1 e) + v34 (ix1 e) * v69 (ix1 e) := by
  unfold k0_pay2
  exact (piece_apply _ _ rfl 1 (by omega) _ _ rfl e).trans rfl

theorem pay2_row2 :
    k0_pay2 (F := Ideal) v15 v21 v33 v34 v35 v40 v45 v48 v53 v58 v69 v82 v85 v96 v109 (ix2 (⟨2, by omega⟩ : Fin 21) e) = v82 (ix1 e) := by
  unfold k0_pay2
  exact (piece_apply _ _ rfl 2 (by omega) _ _ rfl e).trans rfl

theorem pay2_row3 :
    k0_pay2 (F := Ideal) v15 v21 v33 v34 v35 v40 v45 v48 v53 v58 v69 v82 v85 v96 v109 (ix2 (⟨3, by omega⟩ : Fin 21) e) = v34 (ix1 e) * v85 (ix1 e) - v35 (ix1 e) * v96 (ix1 e) := by
  unfold k0_pay2
  exact (piece_apply _ _ rfl 3 (by omega) _ _ rfl e).trans rfl

theorem pay2_row4 :
    k0_pay2 (F := Ideal) v15 v21 v33 v34 v35 v40 v45 v48 v53 v58 v69 v82 v85 v96 v109 (ix2 (⟨4, by omega⟩ : Fin 21) e) = v35 (ix1 e) * v85 (ix1 e) + v34 (ix1 e) * v96 (ix1 e) := by
  unfold k0_pay2
  exact (piece_apply _ _ rfl 4 (by omega) _ _ rfl e).trans rfl

theorem pay2_row5 :
    k0_pay2 (F := Ideal) v15 v21 v33 v34 v35 v40 v45 v48 v53 v58 v69 v82 v85 v96 v109 (ix2 (⟨5, by omega⟩ : Fin 21) e) = v109 (ix1 e) := by
  unfold k0_pay2
  exact (piece_apply _ _ rfl 5 (by omega) _ _ rfl e).trans rfl

theorem pay2_row6 :
    k0_pay2 (F := Ideal) v15 v21 v33 v34 v35 v40 v45 v48 v53 v58 v69 v82 v85 v96 v109 (ix2 (⟨6, by omega⟩ : Fin 21) e) = v58 (ix1 e) := by
  unfold k0_pay2
  exact (piece_apply _ _ rfl 6 (by omega) _ _ rfl e).trans rfl

theorem pay2_row7 :
    k0_pay2 (F := Ideal) v15 v21 v33 v34 v35 v40 v45 v48 v53 v58 v69 v82 v85 v96 v109 (ix2 (⟨7, by omega⟩ : Fin 21) e) = v69 (ix1 e) := by
  unfold k0_pay2
  exact (piece_apply _ _ rfl 7 (by omega) _ _ rfl e).trans rfl

theorem pay2_row8 :
    k0_pay2 (F := Ideal) v15 v21 v33 v34 v35 v40 v45 v48 v53 v58 v69 v82 v85 v96 v109 (ix2 (⟨8, by omega⟩ : Fin 21) e) = v82 (ix1 e) := by
  unfold k0_pay2
  exact (piece_apply _ _ rfl 8 (by omega) _ _ rfl e).trans rfl

theorem pay2_row9 :
    k0_pay2 (F := Ideal) v15 v21 v33 v34 v35 v40 v45 v48 v53 v58 v69 v82 v85 v96 v109 (ix2 (⟨9, by omega⟩ : Fin 21) e) = v85 (ix1 e) := by
  unfold k0_pay2
  exact (piece_apply _ _ rfl 9 (by omega) _ _ rfl e).trans rfl

theorem pay2_row10 :
    k0_pay2 (F := Ideal) v15 v21 v33 v34 v35 v40 v45 v48 v53 v58 v69 v82 v85 v96 v109 (ix2 (⟨10, by omega⟩ : Fin 21) e) = v96 (ix1 e) := by
  unfold k0_pay2
  exact (piece_apply _ _ rfl 10 (by omega) _ _ rfl e).trans rfl

theorem pay2_row11 :
    k0_pay2 (F := Ideal) v15 v21 v33 v34 v35 v40 v45 v48 v53 v58 v69 v82 v85 v96 v109 (ix2 (⟨11, by omega⟩ : Fin 21) e) = v109 (ix1 e) := by
  unfold k0_pay2
  exact (piece_apply _ _ rfl 11 (by omega) _ _ rfl e).trans rfl

theorem pay2_row12 :
    k0_pay2 (F := Ideal) v15 v21 v33 v34 v35 v40 v45 v48 v53 v58 v69 v82 v85 v96 v109 (ix2 (⟨12, by omega⟩ : Fin 21) e) = v40 (ix1 e) := by
  unfold k0_pay2
  exact (piece_apply _ _ rfl 12 (by omega) _ _ rfl e).trans rfl

theorem pay2_row13 :
    k0_pay2 (F := Ideal) v15 v21 v33 v34 v35 v40 v45 v48 v53 v58 v69 v82 v85 v96 v109 (ix2 (⟨13, by omega⟩ : Fin 21) e) = v45 (ix1 e) := by
  unfold k0_pay2
  exact (piece_apply _ _ rfl 13 (by omega) _ _ rfl e).trans rfl

theorem pay2_row14 :
    k0_pay2 (F := Ideal) v15 v21 v33 v34 v35 v40 v45 v48 v53 v58 v69 v82 v85 v96 v109 (ix2 (⟨14, by omega⟩ : Fin 21) e) = v15 (ix1 e) := by
  unfold k0_pay2
  exact (piece_apply _ _ rfl 14 (by omega) _ _ rfl e).trans rfl

theorem pay2_row15 :
    k0_pay2 (F := Ideal) v15 v21 v33 v34 v35 v40 v45 v48 v53 v58 v69 v82 v85 v96 v109 (ix2 (⟨15, by omega⟩ : Fin 21) e) = v48 (ix1 e) := by
  unfold k0_pay2
  exact (piece_apply _ _ rfl 15 (by omega) _ _ rfl e).trans rfl

theorem pay2_row16 :
    k0_pay2 (F := Ideal) v15 v21 v33 v34 v35 v40 v45 v48 v53 v58 v69 v82 v85 v96 v109 (ix2 (⟨16, by omega⟩ : Fin 21) e) = v53 (ix1 e) := by
  unfold k0_pay2
  exact (piece_apply _ _ rfl 16 (by omega) _ _ rfl e).trans rfl

theorem pay2_row17 :
    k0_pay2 (F := Ideal) v15 v21 v33 v34 v35 v40 v45 v48 v53 v58 v69 v82 v85 v96 v109 (ix2 (⟨17, by omega⟩ : Fin 21) e) = v21 (ix1 e) := by
  unfold k0_pay2
  exact (piece_apply _ _ rfl 17 (by omega) _ _ rfl e).trans rfl

theorem pay2_row18 :
    k0_pay2 (F := Ideal) v15 v21 v33 v34 v35 v40 v45 v48 v53 v58 v69 v82 v85 v96 v109 (ix2 (⟨18, by omega⟩ : Fin 21) e) = v33 (ix1 e) := by
  unfold k0_pay2
  exact (piece_apply _ _ rfl 18 (by omega) _ _ rfl e).trans rfl

theorem pay2_row19 :
    k0_pay2 (F := Ideal) v15 v21 v33 v34 v35 v40 v45 v48 v53 v58 v69 v82 v85 v96 v109 (ix2 (⟨19, by omega⟩ : Fin 21) e) = v34 (ix1 e) := by
  unfold k0_pay2
  exact (piece_apply _ _ rfl 19 (by omega) _ _ rfl e).trans rfl

theorem pay2_row20 :
    k0_pay2 (F := Ideal) v15 v21 v33 v34 v35 v40 v45 v48 v53 v58 v69 v82 v85 v96 v109 (ix2 (⟨20, by omega⟩ : Fin 21) e) = v35 (ix1 e) := by
  unfold k0_pay2
  exact (piece_apply _ _ rfl 20 (by omega) _ _ rfl e).trans rfl

end Stack

/-- Row `r`, lane `e` of the stored block. -/
theorem stored_apply (v0 : Vec Ideal S13x32000 .f32) (r : Fin 21) (e : Fin 32000) :
    Cert.KernelIdeal.Hand.stored (F := Ideal) v0 (ix2 r e) = Cert.Beam.row r (fun k => v0 (ix2 k e)) := by
  unfold Cert.KernelIdeal.Hand.stored
  match r with
  | ⟨0, _⟩ =>
    exact (pay2_row0 e).trans
      (congrArg₂ (· - ·) (congrArg₂ (· * ·) (pay14_apply v0 e) (f0_apply v0 e)) (congrArg₂ (· * ·) (pay15_apply v0 e) (f1_apply v0 e)))
  | ⟨1, _⟩ =>
    exact (pay2_row1 e).trans
      (congrArg₂ (· + ·) (congrArg₂ (· * ·) (pay15_apply v0 e) (f0_apply v0 e)) (congrArg₂ (· * ·) (pay14_apply v0 e) (f1_apply v0 e)))
  | ⟨2, _⟩ =>
    exact (pay2_row2 e).trans
      (f2_apply v0 e)
  | ⟨3, _⟩ =>
    exact (pay2_row3 e).trans
      (congrArg₂ (· - ·) (congrArg₂ (· * ·) (pay14_apply v0 e) (f3_apply v0 e)) (congrArg₂ (· * ·) (pay15_apply v0 e) (f4_apply v0 e)))
  | ⟨4, _⟩ =>
    exact (pay2_row4 e).trans
      (congrArg₂ (· + ·) (congrArg₂ (· * ·) (pay15_apply v0 e) (f3_apply v0 e)) (congrArg₂ (· * ·) (pay14_apply v0 e) (f4_apply v0 e)))
  | ⟨5, _⟩ =>
    exact (pay2_row5 e).trans
      (f5_apply v0 e)
  | ⟨6, _⟩ =>
    exact (pay2_row6 e).trans
      (f0_apply v0 e)
  | ⟨7, _⟩ =>
    exact (pay2_row7 e).trans
      (f1_apply v0 e)
  | ⟨8, _⟩ =>
    exact (pay2_row8 e).trans
      (f2_apply v0 e)
  | ⟨9, _⟩ =>
    exact (pay2_row9 e).trans
      (f3_apply v0 e)
  | ⟨10, _⟩ =>
    exact (pay2_row10 e).trans
      (f4_apply v0 e)
  | ⟨11, _⟩ =>
    exact (pay2_row11 e).trans
      (f5_apply v0 e)
  | ⟨12, _⟩ =>
    exact (pay2_row12 e).trans
      (pay18_apply v0 e)
  | ⟨13, _⟩ =>
    exact (pay2_row13 e).trans
      (pay19_apply v0 e)
  | ⟨14, _⟩ =>
    exact (pay2_row14 e).trans
      (pay6_apply v0 e)
  | ⟨15, _⟩ =>
    exact (pay2_row15 e).trans
      (pay20_apply v0 e)
  | ⟨16, _⟩ =>
    exact (pay2_row16 e).trans
      (pay21_apply v0 e)
  | ⟨17, _⟩ =>
    exact (pay2_row17 e).trans
      (pay9_apply v0 e)
  | ⟨18, _⟩ =>
    exact (pay2_row18 e).trans
      (pay13_apply v0 e)
  | ⟨19, _⟩ =>
    exact (pay2_row19 e).trans
      (pay14_apply v0 e)
  | ⟨20, _⟩ =>
    exact (pay2_row20 e).trans
      (pay15_apply v0 e)
  | ⟨n + 21, h⟩ => exact absurd h (by omega)

end Cert.KernelIdeal.BodyValue

end
-- ==== Proof.Packed.lean ====
/-
  The thirteen result arrays as functions of the six argument arrays.

  Both programs first look up, for every element e, its two node numbers in the connectivity table (a
  negative number counted from the end, as array indexing does), and read the nodes' coordinates and
  displacements out of the two node tables: ten gathered columns, which with the three per-element
  property arrays are the element's thirteen numbers (`pk`).  Every result is then a row of
  `Cert.Beam` at those thirteen numbers, laid out per element or per element and component; the nodal
  force table is the two ends' global forces added into a zero table at the two node numbers.
  The shapes and shape facts cited are the reference program's; the kernel's program spells the same
  shapes under its own names.
-/
import proofs.«416616_j12146167513831_4_alg».proof.Proof.Gen.ReferenceIdeal
import proofs.«416616_j12146167513831_4_alg».proof.Proof.Beam
import Idealize.ShloMosaic.Lib.ValueIdx

noncomputable section

namespace Cert.Packed

open Idealize.ShloMosaic Idealize.ShloMosaic.ValueIdx Cert.ReferenceIdeal Cert.ReferenceIdeal.Gen

variable {F : FTy → Type} [FloatOps F]

/-- Column 0 of the connectivity table: each element's first node. -/
def nodeA (conn : IVec S4000000x2 32) : IVec S4000000 32 :=
  shapeCast S4000000 (extractStridedSlice S4000000x1 ![0, 0] conn slices_S4000000x2_S4000000x1_0_0) shapeCasts_S4000000x1_S4000000

/-- Column 1: its second node. -/
def nodeB (conn : IVec S4000000x2 32) : IVec S4000000 32 :=
  shapeCast S4000000 (extractStridedSlice S4000000x1 ![0, 1] conn slices_S4000000x2_S4000000x1_0_1) shapeCasts_S4000000x1_S4000000

/-- A negative node number counts from the end of the node table (1 000 000 rows). -/
def wrap (n : IVec S4000000 32) : IVec S4000000 32 :=
  select (cmpi .slt n (broadcastInDim S4000000 ![] bcast_S_S4000000 (constantI S_ 32 0#32)))
    (addi n (broadcastInDim S4000000 ![] bcast_S_S4000000 (constantI S_ 32 1000000#32))) n

/-- Column `col` of a node table read at every element's node `n`. -/
def take (tbl : FVec F S1000000x3 .f32) (n : IVec S4000000 32) (col : BitVec 32) : FVec F S4000000 .f32 :=
  Host.gather gather_S1000000x3_S4000000x2_S4000000_n_01_n_n_01_1_11 tbl
    (concatenate S4000000x2 1
      [⟨S4000000x1, (broadcastInDim S4000000x1 ![0] bcast_S4000000_S4000000x1_0 (wrap n))⟩,
       ⟨S4000000x1, (broadcastInDim S4000000x1 ![0] bcast_S4000000_S4000000x1_0
          (id (broadcastInDim S4000000 ![] bcast_S_S4000000 (constantI S_ 32 col))))⟩]
      concatenates_S4000000x1_S4000000x1_S4000000x2_d1)

/-- The thirteen numbers of element `e`: coordinates of A (x, z) and of B (x, z), displacements of A
    (ux, uz, θ) and of B, then E, A, I. -/
def pk (disp : FVec Ideal S1000000x3 .f32) (conn : IVec S4000000x2 32) (coords : FVec Ideal S1000000x3 .f32)
    (pE pA pI : FVec Ideal S4000000 .f32) (e : Fin 4000000) : Cert.Beam.In
  | 0 => take coords (nodeA conn) 0#32 (ix1 e)
  | 1 => take coords (nodeA conn) 2#32 (ix1 e)
  | 2 => take coords (nodeB conn) 0#32 (ix1 e)
  | 3 => take coords (nodeB conn) 2#32 (ix1 e)
  | 4 => take disp (nodeA conn) 0#32 (ix1 e)
  | 5 => take disp (nodeA conn) 1#32 (ix1 e)
  | 6 => take disp (nodeA conn) 2#32 (ix1 e)
  | 7 => take disp (nodeB conn) 0#32 (ix1 e)
  | 8 => take disp (nodeB conn) 1#32 (ix1 e)
  | 9 => take disp (nodeB conn) 2#32 (ix1 e)
  | 10 => pE (ix1 e)
  | 11 => pA (ix1 e)
  | 12 => pI (ix1 e)
  | ⟨_ + 13, h⟩ => absurd h (by omega)

/-! ## The results laid out, over any family of element numbers -/

section
variable (p : Fin 4000000 → Cert.Beam.In)

/-- Row `r` of the beam at every element. -/
def vec (r : Fin 21) : FVec Ideal S4000000 .f32 := fun j => Cert.Beam.row r (p (j 0))

/-- The mid-span moment at every element. -/
def midVec : FVec Ideal S4000000 .f32 := fun j => Cert.Beam.mid (p (j 0))

/-- Rows `a`, `a + 1`, `a + 2` side by side: an element's three components. -/
def arr3 (a : Nat) (ha : a + 3 ≤ 21) : FVec Ideal S4000000x3 .f32 :=
  fun j => Cert.Beam.row ⟨a + (j 1).val, by have h : (j 1).val < 3 := (j 1).isLt; omega⟩ (p (j 0))

/-- Rows `a` … `a + 5` side by side: an element's six components. -/
def arr6 (a : Nat) (ha : a + 6 ≤ 21) : FVec Ideal S4000000x6 .f32 :=
  fun j => Cert.Beam.row ⟨a + (j 1).val, by have h : (j 1).val < 6 := (j 1).isLt; omega⟩ (p (j 0))

end

/-- Two per-element force triples added into a zero node table, the first at each element's node `nA`, the second at its
    node `nB` (negative node numbers counted from the end). -/
def nodal (nA nB : IVec S4000000 32) (FA FB : FVec F S4000000x3 .f32) : FVec F S1000000x3 .f32 :=
  Host.scatterAdd scatter_S1000000x3_S4000000x1_S4000000x3_1_0_0_1
    (Host.scatterAdd scatter_S1000000x3_S4000000x1_S4000000x3_1_0_0_1
      (broadcastInDim S1000000x3 ![] bcast_S_S1000000x3 (constant S_ .f32 0x00000000#32))
      (broadcastInDim S4000000x1 ![0] bcast_S4000000_S4000000x1_0 (wrap nA)) FA)
    (broadcastInDim S4000000x1 ![0] bcast_S4000000_S4000000x1_0 (wrap nB)) FB

end Cert.Packed

end
-- ==== Proof.KernelHost.lean ====
/-
  The kernel program's host operations read as values: before the region, the thirteen-row array the region is given
  holds, at row k and element e, the k-th of element e's thirteen numbers, and the two node-number vectors are the
  connectivity table's columns; after the region, every result buffer is a slice of the region's 21-row result laid
  out per element (or per element and component), the mid-span moment from rows 11 and 8, and the nodal force table the
  two force triples added at the two node numbers.
-/
import proofs.«416616_j12146167513831_4_alg».proof.Proof.Gen.KernelIdeal.Launch
import proofs.«416616_j12146167513831_4_alg».proof.Proof.Packed
import Idealize.ShloMosaic.Lib.ValueIdx
import Idealize.ShloMosaic.Lib.ValueLayout
import Idealize.ShloMosaic.Lib.Pipeline.Value

set_option maxRecDepth 16384

noncomputable section

namespace Cert.KernelIdeal.HostValue

open Idealize.ShloMosaic Idealize.ShloMosaic.ValueIdx Idealize.ShloMosaic.StableHlo
open Cert.KernelIdeal Cert.KernelIdeal.Gen

/-! ## Before the region -/

section Rows
variable {α : Type}

/-- A stack of thirteen one-row arrays read at row `k`, element `e`: the `k`-th array's only row at `e` (the rows before
    it take up `k` of the stack's rows). -/
theorem concat_row (xs : List ((s : Shape) × (s.Idx → α))) (h : Shape.Concatenates (xs.map (·.1)) S13x4000000 0)
    (k : Fin 13) (e : Fin 4000000) (x : S1x4000000.Idx → α) (hx : xs[k.val]? = some ⟨S1x4000000, x⟩)
    (hpre : (((xs.take k.val).map (·.1)).map fun s =>
        if h : s.rank = S13x4000000.rank then s.size ((0 : Fin S13x4000000.rank).cast h.symm) else 0).sum = k.val) :
    concatenate S13x4000000 0 xs h (ix2 k e) = x (ix2 (0 : Fin 1) e) := by
  obtain ⟨hk, hxk⟩ := List.getElem?_eq_some_iff.1 hx
  refine concatenate_apply_piece 0 xs h (ix2 k e) k.val hk S1x4000000 x hxk rfl k.val hpre (ix2 0 e) (fun b hb => ?_) rfl
  match b with
  | ⟨0, _⟩ => exact absurd rfl hb
  | ⟨1, _⟩ => rfl

/-- A vector laid as the one row of a `[1, n]` array reads, at `(u, e)`, the vector at `e`. -/
theorem bcast_row (x : S4000000.Idx → α) (h : S4000000.BroadcastsInDim S1x4000000 ![1]) (u : Fin 1) (e : Fin 4000000) :
    broadcastInDim S1x4000000 ![1] h x (ix2 u e) = x (ix1 e) :=
  broadcastInDim_apply ![1] h x (ix2 u e) (ix1 e) (fun a => match a with | ⟨0, _⟩ => rfl)

end Rows

/-- The array the region is given, as the stack of its thirteen rows: ten columns of the two node tables read at the
    elements' two nodes, then the three per-element property vectors (for any reading of the floats). -/
theorem packed_fun {F : FTy → Type} [FloatOps F] (Vm : Valuation τ sig (Elt F)) :
    (StableHlo.after (hostOps0 (F := F)) Vm (Proc.devRef .tc main_v127) : FVec F S13x4000000 .f32)
      = concatenate S13x4000000 0
          [⟨S1x4000000, broadcastInDim S1x4000000 ![1] bcast_S4000000_S1x4000000_1 (Cert.Packed.take (F := F) (Vm (Proc.devRef .tc main_arg2)) (Cert.Packed.nodeA (Vm (Proc.devRef .tc main_arg1))) 0#32)⟩,
           ⟨S1x4000000, broadcastInDim S1x4000000 ![1] bcast_S4000000_S1x4000000_1 (Cert.Packed.take (F := F) (Vm (Proc.devRef .tc main_arg2)) (Cert.Packed.nodeA (Vm (Proc.devRef .tc main_arg1))) 2#32)⟩,
           ⟨S1x4000000, broadcastInDim S1x4000000 ![1] bcast_S4000000_S1x4000000_1 (Cert.Packed.take (F := F) (Vm (Proc.devRef .tc main_arg2)) (Cert.Packed.nodeB (Vm (Proc.devRef .tc main_arg1))) 0#32)⟩,
           ⟨S1x4000000, broadcastInDim S1x4000000 ![1] bcast_S4000000_S1x4000000_1 (Cert.Packed.take (F := F) (Vm (Proc.devRef .tc main_arg2)) (Cert.Packed.nodeB (Vm (Proc.devRef .tc main_arg1))) 2#32)⟩,
           ⟨S1x4000000, broadcastInDim S1x4000000 ![1] bcast_S4000000_S1x4000000_1 (Cert.Packed.take (F := F) (Vm (Proc.devRef .tc main_arg0)) (Cert.Packed.nodeA (Vm (Proc.devRef .tc main_arg1))) 0#32)⟩,
           ⟨S1x4000000, broadcastInDim S1x4000000 ![1] bcast_S4000000_S1x4000000_1 (Cert.Packed.take (F := F) (Vm (Proc.devRef .tc main_arg0)) (Cert.Packed.nodeA (Vm (Proc.devRef .tc main_arg1))) 1#32)⟩,
           ⟨S1x4000000, broadcastInDim S1x4000000 ![1] bcast_S4000000_S1x4000000_1 (Cert.Packed.take (F := F) (Vm (Proc.devRef .tc main_arg0)) (Cert.Packed.nodeA (Vm (Proc.devRef .tc main_arg1))) 2#32)⟩,
           ⟨S1x4000000, broadcastInDim S1x4000000 ![1] bcast_S4000000_S1x4000000_1 (Cert.Packed.take (F := F) (Vm (Proc.devRef .tc main_arg0)) (Cert.Packed.nodeB (Vm (Proc.devRef .tc main_arg1))) 0#32)⟩,
           ⟨S1x4000000, broadcastInDim S1x4000000 ![1] bcast_S4000000_S1x4000000_1 (Cert.Packed.take (F := F) (Vm (Proc.devRef .tc main_arg0)) (Cert.Packed.nodeB (Vm (Proc.devRef .tc main_arg1))) 1#32)⟩,
           ⟨S1x4000000, broadcastInDim S1x4000000 ![1] bcast_S4000000_S1x4000000_1 (Cert.Packed.take (F := F) (Vm (Proc.devRef .tc main_arg0)) (Cert.Packed.nodeB (Vm (Proc.devRef .tc main_arg1))) 2#32)⟩,
           ⟨S1x4000000, broadcastInDim S1x4000000 ![1] bcast_S4000000_S1x4000000_1 ((Vm (Proc.devRef .tc main_arg3)) : FVec F S4000000 .f32)⟩,
           ⟨S1x4000000, broadcastInDim S1x4000000 ![1] bcast_S4000000_S1x4000000_1 ((Vm (Proc.devRef .tc main_arg4)) : FVec F S4000000 .f32)⟩,
           ⟨S1x4000000, broadcastInDim S1x4000000 ![1] bcast_S4000000_S1x4000000_1 ((Vm (Proc.devRef .tc main_arg5)) : FVec F S4000000 .f32)⟩]
          concatenates_S1x4000000_S1x4000000_S1x4000000_S1x4000000_S1x4000000_S1x4000000_S1x4000000_S1x4000000_S1x4000000_S1x4000000_S1x4000000_S1x4000000_S1x4000000_S13x4000000_d0 := by
  chain_rfl

/-- Row `k`, element `e` of the array the region is given. -/
theorem packed_in (Vm : Valuation τ sig (Elt Ideal)) (k : Fin 13) (e : Fin 4000000) :
    (StableHlo.after (hostOps0 (F := Ideal)) Vm (Proc.devRef .tc main_v127) : FVec Ideal S13x4000000 .f32) (ix2 k e)
      = Cert.Packed.pk (Vm (Proc.devRef .tc main_arg0)) (Vm (Proc.devRef .tc main_arg1)) (Vm (Proc.devRef .tc main_arg2))
          (Vm (Proc.devRef .tc main_arg3)) (Vm (Proc.devRef .tc main_arg4)) (Vm (Proc.devRef .tc main_arg5)) e k := by
  refine (congrFun (packed_fun Vm) (ix2 k e)).trans ?_
  match k with
  | ⟨0, _⟩ => exact (concat_row _ _ _ e _ rfl rfl).trans (bcast_row _ _ 0 e)
  | ⟨1, _⟩ => exact (concat_row _ _ _ e _ rfl rfl).trans (bcast_row _ _ 0 e)
  | ⟨2, _⟩ => exact (concat_row _ _ _ e _ rfl rfl).trans (bcast_row _ _ 0 e)
  | ⟨3, _⟩ => exact (concat_row _ _ _ e _ rfl rfl).trans (bcast_row _ _ 0 e)
  | ⟨4, _⟩ => exact (concat_row _ _ _ e _ rfl rfl).trans (bcast_row _ _ 0 e)
  | ⟨5, _⟩ => exact (concat_row _ _ _ e _ rfl rfl).trans (bcast_row _ _ 0 e)
  | ⟨6, _⟩ => exact (concat_row _ _ _ e _ rfl rfl).trans (bcast_row _ _ 0 e)
  | ⟨7, _⟩ => exact (concat_row _ _ _ e _ rfl rfl).trans (bcast_row _ _ 0 e)
  | ⟨8, _⟩ => exact (concat_row _ _ _ e _ rfl rfl).trans (bcast_row _ _ 0 e)
  | ⟨9, _⟩ => exact (concat_row _ _ _ e _ rfl rfl).trans (bcast_row _ _ 0 e)
  | ⟨10, _⟩ => exact (concat_row _ _ _ e _ rfl rfl).trans (bcast_row _ _ 0 e)
  | ⟨11, _⟩ => exact (concat_row _ _ _ e _ rfl rfl).trans (bcast_row _ _ 0 e)
  | ⟨12, _⟩ => exact (concat_row _ _ _ e _ rfl rfl).trans (bcast_row _ _ 0 e)

/-- The first node of every element. -/
theorem nodeA_eq (Vm : Valuation τ sig (Elt Ideal)) :
    StableHlo.after (hostOps0 (F := Ideal)) Vm (Proc.devRef .tc main_v1) = Cert.Packed.nodeA (Vm (Proc.devRef .tc main_arg1)) := by
  chain_rfl

/-- The second node of every element. -/
theorem nodeB_eq (Vm : Valuation τ sig (Elt Ideal)) :
    StableHlo.after (hostOps0 (F := Ideal)) Vm (Proc.devRef .tc main_v3) = Cert.Packed.nodeB (Vm (Proc.devRef .tc main_arg1)) := by
  chain_rfl

/-! ## After the region -/

section Read
variable (p : Fin 4000000 → Cert.Beam.In) (X : FVec Ideal S21x4000000 .f32)
  (hX : ∀ (r : Fin 21) (e : Fin 4000000), X (ix2 r e) = Cert.Beam.row r (p e))
include hX

/-- Row `r` of the 21-row array, cut out and flattened, is the beam's row `r` at every element. -/
theorem read_vec (o : Nat) (r : Fin 21) (hr : r.val = o) (h : S21x4000000.Slices ![o, 0] S1x4000000)
    (h2 : S1x4000000.ShapeCasts S4000000) :
    shapeCast S4000000 (extractStridedSlice S1x4000000 ![o, 0] X h) h2 = Cert.Packed.vec p r := by
  funext j
  obtain ⟨e, rfl⟩ : ∃ e, j = ix1 e := ⟨j 0, eq_ix1 j⟩
  refine (shapeCast_1a_a_apply _ h2 e).trans ?_
  refine (slice2_axis0_apply o X h (0 : Fin 1) e r (hr.trans (Nat.add_zero o).symm)).trans ?_
  exact hX r e

/-- Rows `a`, `a + 1`, `a + 2`, cut out and transposed, are an element's three components side by side. -/
theorem read_arr3 (a : Nat) (ha : a + 3 ≤ 21) (h : S21x4000000.Slices ![a, 0] S3x4000000)
    (h2 : S3x4000000.Transposes [1, 0] S4000000x3) :
    transpose S4000000x3 [1, 0] (extractStridedSlice S3x4000000 ![a, 0] X h) h2 = Cert.Packed.arr3 p a ha := by
  funext j
  obtain ⟨e, c, rfl⟩ : ∃ e c, j = ix2 e c := ⟨j 0, j 1, eq_ix2 j⟩
  refine (transpose_ix2_apply _ h2 e c).trans ?_
  refine (slice2_axis0_apply a X h c e ⟨a + c.val, by have := c.isLt; omega⟩ rfl).trans ?_
  exact hX _ e

/-- Rows `a` … `a + 5`, cut out and transposed, are an element's six components side by side. -/
theorem read_arr6 (a : Nat) (ha : a + 6 ≤ 21) (h : S21x4000000.Slices ![a, 0] S6x4000000)
    (h2 : S6x4000000.Transposes [1, 0] S4000000x6) :
    transpose S4000000x6 [1, 0] (extractStridedSlice S6x4000000 ![a, 0] X h) h2 = Cert.Packed.arr6 p a ha := by
  funext j
  obtain ⟨e, c, rfl⟩ : ∃ e c, j = ix2 e c := ⟨j 0, j 1, eq_ix2 j⟩
  refine (transpose_ix2_apply _ h2 e c).trans ?_
  refine (slice2_axis0_apply a X h c e ⟨a + c.val, by have := c.isLt; omega⟩ rfl).trans ?_
  exact hX _ e

/-- Half the difference of rows 11 and 8 is the mid-span moment. -/
theorem read_mid (h11 : S21x4000000.Slices ![11, 0] S1x4000000) (h8 : S21x4000000.Slices ![8, 0] S1x4000000)
    (h2 : S1x4000000.ShapeCasts S4000000) (hb : S_.BroadcastsInDim S4000000 ![]) :
    mulf (subf (shapeCast S4000000 (extractStridedSlice S1x4000000 ![11, 0] X h11) h2)
               (shapeCast S4000000 (extractStridedSlice S1x4000000 ![8, 0] X h8) h2))
         (broadcastInDim S4000000 ![] hb (constant S_ .f32 0x3F000000#32)) = Cert.Packed.midVec p := by
  rw [read_vec p X hX 11 11 rfl h11 h2, read_vec p X hX 8 8 rfl h8 h2]
  funext j
  rfl

end Read

section Tail
variable (Vw : Valuation τ sig (Elt Ideal)) (p : Fin 4000000 → Cert.Beam.In)
  (hW : ∀ (r : Fin 21) (e : Fin 4000000), (Vw (Proc.devRef .tc main_v128) : FVec Ideal S21x4000000 .f32) (ix2 r e) = Cert.Beam.row r (p e))
include hW

theorem tail3 : StableHlo.after (hostOps1 (F := Ideal)) Vw (Proc.devRef .tc main_v130) = Cert.Packed.arr3 p 0 (by decide) := by
  simp only [hostOps1]
  after_results_simp
  exact read_arr3 p _ hW 0 (by decide) _ _
theorem tail4 : StableHlo.after (hostOps1 (F := Ideal)) Vw (Proc.devRef .tc main_v132) = Cert.Packed.arr3 p 3 (by decide) := by
  simp only [hostOps1]
  after_results_simp
  exact read_arr3 p _ hW 3 (by decide) _ _
theorem tail1 : StableHlo.after (hostOps1 (F := Ideal)) Vw (Proc.devRef .tc main_v134) = Cert.Packed.arr6 p 6 (by decide) := by
  simp only [hostOps1]
  after_results_simp
  exact read_arr6 p _ hW 6 (by decide) _ _
theorem tail2 : StableHlo.after (hostOps1 (F := Ideal)) Vw (Proc.devRef .tc main_v136) = Cert.Packed.arr6 p 12 (by decide) := by
  simp only [hostOps1]
  after_results_simp
  exact read_arr6 p _ hW 12 (by decide) _ _
theorem tail5 : StableHlo.after (hostOps1 (F := Ideal)) Vw (Proc.devRef .tc main_v146) = Cert.Packed.vec p 9 := by
  simp only [hostOps1]
  after_results_simp
  exact read_vec p _ hW 9 9 rfl _ _
theorem tail7 : StableHlo.after (hostOps1 (F := Ideal)) Vw (Proc.devRef .tc main_v148) = Cert.Packed.vec p 10 := by
  simp only [hostOps1]
  after_results_simp
  exact read_vec p _ hW 10 10 rfl _ _
theorem tail8 : StableHlo.after (hostOps1 (F := Ideal)) Vw (Proc.devRef .tc main_v144) = Cert.Packed.vec p 8 := by
  simp only [hostOps1]
  after_results_simp
  exact read_vec p _ hW 8 8 rfl _ _
theorem tail9 : StableHlo.after (hostOps1 (F := Ideal)) Vw (Proc.devRef .tc main_v150) = Cert.Packed.vec p 11 := by
  simp only [hostOps1]
  after_results_simp
  exact read_vec p _ hW 11 11 rfl _ _
theorem tail10 : StableHlo.after (hostOps1 (F := Ideal)) Vw (Proc.devRef .tc main_v138) = Cert.Packed.vec p 18 := by
  simp only [hostOps1]
  after_results_simp
  exact read_vec p _ hW 18 18 rfl _ _
theorem tail11 : StableHlo.after (hostOps1 (F := Ideal)) Vw (Proc.devRef .tc main_v140) = Cert.Packed.vec p 19 := by
  simp only [hostOps1]
  after_results_simp
  exact read_vec p _ hW 19 19 rfl _ _
theorem tail12 : StableHlo.after (hostOps1 (F := Ideal)) Vw (Proc.devRef .tc main_v142) = Cert.Packed.vec p 20 := by
  simp only [hostOps1]
  after_results_simp
  exact read_vec p _ hW 20 20 rfl _ _
theorem tail6 : StableHlo.after (hostOps1 (F := Ideal)) Vw (Proc.devRef .tc main_v153) = Cert.Packed.midVec p := by
  simp only [hostOps1]
  after_results_simp
  exact read_mid p _ hW _ _ _ _
theorem tail0 : StableHlo.after (hostOps1 (F := Ideal)) Vw (Proc.devRef .tc main_v168)
    = Cert.Packed.nodal (Vw (Proc.devRef .tc main_v1)) (Vw (Proc.devRef .tc main_v3)) (Cert.Packed.arr3 p 0 (by decide)) (Cert.Packed.arr3 p 3 (by decide)) := by
  simp only [hostOps1]
  after_results_simp
  rw [read_arr3 p _ hW 0 (by decide) slices_S21x4000000_S3x4000000_0_0 transposes_S3x4000000_S4000000x3_1_0,
      read_arr3 p _ hW 3 (by decide) slices_S21x4000000_S3x4000000_3_0 transposes_S3x4000000_S4000000x3_1_0]
  rfl

end Tail

end Cert.KernelIdeal.HostValue

end
-- ==== Proof.Spec.lean ====
/-
  The thirteen results as functions of the six argument arrays (displacements, connectivity, coordinates, E, A, I):
  the nodal force table, the local end forces and end displacements per element and component, the two ends' global
  forces, then per element the axial force, the mid-span moment, the shear, the two end moments, the length and the
  two direction cosines.
-/
import proofs.«416616_j12146167513831_4_alg».proof.Proof.Packed

noncomputable section

namespace Cert.Spec

open Idealize.ShloMosaic Cert.ReferenceIdeal Cert.Packed

variable (a0 : FVec Ideal S1000000x3 .f32) (a1 : IVec S4000000x2 32) (a2 : FVec Ideal S1000000x3 .f32)
  (a3 a4 a5 : FVec Ideal S4000000 .f32)

def out0 : FVec Ideal S1000000x3 .f32 :=
  nodal (nodeA a1) (nodeB a1) (arr3 (pk a0 a1 a2 a3 a4 a5) 0 (by decide)) (arr3 (pk a0 a1 a2 a3 a4 a5) 3 (by decide))
def out1 : FVec Ideal S4000000x6 .f32 := arr6 (pk a0 a1 a2 a3 a4 a5) 6 (by decide)
def out2 : FVec Ideal S4000000x6 .f32 := arr6 (pk a0 a1 a2 a3 a4 a5) 12 (by decide)
def out3 : FVec Ideal S4000000x3 .f32 := arr3 (pk a0 a1 a2 a3 a4 a5) 0 (by decide)
def out4 : FVec Ideal S4000000x3 .f32 := arr3 (pk a0 a1 a2 a3 a4 a5) 3 (by decide)
def out5 : FVec Ideal S4000000 .f32 := vec (pk a0 a1 a2 a3 a4 a5) 9
def out6 : FVec Ideal S4000000 .f32 := midVec (pk a0 a1 a2 a3 a4 a5)
def out7 : FVec Ideal S4000000 .f32 := vec (pk a0 a1 a2 a3 a4 a5) 10
def out8 : FVec Ideal S4000000 .f32 := vec (pk a0 a1 a2 a3 a4 a5) 8
def out9 : FVec Ideal S4000000 .f32 := vec (pk a0 a1 a2 a3 a4 a5) 11
def out10 : FVec Ideal S4000000 .f32 := vec (pk a0 a1 a2 a3 a4 a5) 18
def out11 : FVec Ideal S4000000 .f32 := vec (pk a0 a1 a2 a3 a4 a5) 19
def out12 : FVec Ideal S4000000 .f32 := vec (pk a0 a1 a2 a3 a4 a5) 20

end Cert.Spec

end
-- ==== Proof.KernelValue.lean ====
/-
  The kernel program's thirteen results as functions of its six argument arrays.

  The region's output blocks tile its 21-row result array along the element axis: point t writes columns
  32 000·t … 32 000·t + 31 999, all 21 rows, and what it writes at row r, lane e is row r of the beam at the
  thirteen entries of lane e of its input block — which are element 32 000·t + e's thirteen numbers, because the
  input block is the same columns of the packed array.  So the result array holds, at (r, e), row r of the beam at
  element e's numbers; the host operations after the region cut it into the thirteen results.
-/
import proofs.«416616_j12146167513831_4_alg».proof.Proof.FrameKI
import proofs.«416616_j12146167513831_4_alg».proof.Proof.BodyValue
import proofs.«416616_j12146167513831_4_alg».proof.Proof.KernelHost
import proofs.«416616_j12146167513831_4_alg».proof.Proof.Spec
import Idealize.ShloMosaic.Lib.Pipeline.Value
import Idealize.ShloMosaic.Lib.ValueIdx

set_option maxRecDepth 16384

noncomputable section

namespace Cert.KernelIdeal.Value

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

/-- Core `c`'s buffers as launched. -/
abbrev Vm (c : Dev nD) : Valuation τ sig (Elt Ideal) := fun b => m (c, b)

/-- Element `e`'s thirteen numbers, from core `c`'s argument arrays as launched. -/
abbrev pkOf (c : Dev nD) (e : Fin 4000000) : Cert.Beam.In :=
  Cert.Packed.pk (Vm m c (Proc.devRef .tc main_arg0)) (Vm m c (Proc.devRef .tc main_arg1)) (Vm m c (Proc.devRef .tc main_arg2))
    (Vm m c (Proc.devRef .tc main_arg3)) (Vm m c (Proc.devRef .tc main_arg4)) (Vm m c (Proc.devRef .tc main_arg5)) e

/-- What the region's result array ends holding. -/
def Wfun (c : Dev nD) : FVec Ideal S21x4000000 .f32 :=
  fun i => Cert.Beam.row ⟨(i 0).val, (i 0).isLt⟩ (pkOf m c ⟨(i 1).val, (i 1).isLt⟩)

theorem Wfun_apply (c : Dev nD) (r : Fin 21) (e : Fin 4000000) : Wfun m c (ix2 r e) = Cert.Beam.row r (pkOf m c e) := rfl

theorem hz : (![0, 0] : Fin 2 → Nat) = fun _ => 0 := funext fun a => by fin_cases a <;> rfl

/-- The region-entry buffers are the host operations before the region run from the launch contents. -/
theorem V_eq (c : Dev nD) (b : Ref sig .tc) :
    V m c b = StableHlo.after (hostOps0 (F := Ideal)) (Vm m c) (Proc.devRef .tc b) := by
  dsimp only [V, V0]
  rw [List.flatten_cons, List.flatten_nil, List.append_nil]

/-- The printed index maps over the grid: both windows sit at row block 0 and column block t. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Every column block is some point's. -/
theorem idx_onto : ∀ q : Fin 125, ∃ t : Fin cfg0.N, win0_1.index t = ![0, q.val] :=
  (by decide +kernel : ∀ q : Fin 125, ∃ t : Fin grid0.N, win0_1.index t = ![0, q.val])

/-- Lane `e` of row `k` of point `t`'s input block is the `k`-th number of element 32 000·t + e. -/
theorem iblk_apply (c : Dev nD) (t : Fin cfg0.N) (k : Fin 13) (e : Fin 32000) :
    iblk m c 0 t (ix2 k e) = pkOf m c ⟨t.val * 32000 + e.val, by have := t.isLt; have := e.isLt; have h : cfg0.N = 125 := N_0; omega⟩ k := by
  obtain ⟨e0, e1, -, -⟩ := idx_facts t
  unfold iblk
  rw [View.read_apply]
  have hemb : ((cfg0.win 0).blk t).view.emb (ix2 k e)
      = ix2 k (⟨t.val * 32000 + e.val, by have := t.isLt; have := e.isLt; have h : cfg0.N = 125 := N_0; omega⟩ : Fin 4000000) := by
    funext a; apply Fin.ext
    match a with
    | ⟨0, _⟩ => show win0_0.index t (0 : Fin 2) * 13 + 1 * k.val = k.val; omega
    | ⟨1, _⟩ => show win0_0.index t (1 : Fin 2) * 32000 + 1 * e.val = t.val * 32000 + e.val; omega
  rw [hemb]
  show V m c main_v127 _ = _
  rw [V_eq]
  exact Cert.KernelIdeal.HostValue.packed_in (Vm m c) k _

/-- What point `t` writes back is block `t` of `Wfun`. -/
theorem flushed_eq (c : Dev nD) (t : Fin cfg0.N) :
    (dats m 0 c).flushed 1 t = ((cfg0.win 1).blk t).view.read (Elt Ideal) (Wfun m c) := by
  show (cfg0.win 1).cut (grid0.coords t) ((dats m 0 c).after 1 t) = _
  rw [after0_1]
  unfold out0_1
  rw [View.canon_unit_zero hz]
  simp only [View.ld_unit_zero (S := S13x32000) hz]
  obtain ⟨-, -, e2, e3⟩ := idx_facts t
  funext j
  obtain ⟨r, e, rfl⟩ : ∃ (r : Fin 21) (e : Fin 32000), j = ix2 r e := ⟨j 0, j 1, eq_ix2 j⟩
  rw [View.read_apply]
  have hemb : ((cfg0.win 1).blk t).view.emb (ix2 r e)
      = ix2 r (⟨t.val * 32000 + e.val, by have := t.isLt; have := e.isLt; have h : cfg0.N = 125 := N_0; omega⟩ : Fin 4000000) := by
    funext a; apply Fin.ext
    match a with
    | ⟨0, _⟩ => show win0_1.index t (0 : Fin 2) * 21 + 1 * r.val = r.val; omega
    | ⟨1, _⟩ => show win0_1.index t (1 : Fin 2) * 32000 + 1 * e.val = t.val * 32000 + e.val; omega
  rw [hemb, Wfun_apply]
  refine (Cert.KernelIdeal.BodyValue.stored_apply (iblk m c 0 t) r e).trans ?_
  exact congrArg (Cert.Beam.row r) (funext fun k => iblk_apply m c t k e)

/-- An index of the result array is in point `t`'s block iff each coordinate is in the block's range. -/
theorem mem_blk (t : Fin cfg0.N) (i : S21x4000000.Idx) :
    i ∈ ((cfg0.win 1).blk t).view.set ↔ ∀ a : Fin 2, win0_1.index t a * S21x32000.size a ≤ (i a).val ∧ (i a).val < win0_1.index t a * S21x32000.size a + S21x32000.size a := by
  show i ∈ ((View.whole main_v128).slice (win0_1.rect t)).set ↔ _
  rw [View.set_slice_whole, Rect.mem_set_unit]
  exact Iff.rfl

/-- Every index of the result array is in some point's block: the blocks tile it. -/
theorem cover (i : S21x4000000.Idx) : ∃ t : Fin cfg0.N, (cfg0.win 1).flush t = true ∧ i ∈ ((cfg0.win 1).blk t).view.set := by
  have hi0 : (i 0).val < 21 := (i 0).isLt
  have hi1 : (i 1).val < 4000000 := (i 1).isLt
  obtain ⟨t, ht⟩ := idx_onto ⟨(i 1).val / 32000, by omega⟩
  have q0 : win0_1.index t (0 : Fin 2) = 0 := congrFun ht 0
  have q1 : win0_1.index t (1 : Fin 2) = (i 1).val / 32000 := congrFun ht 1
  refine ⟨t, flush0_1 t, ?_⟩
  rw [mem_blk]
  intro a
  match a with
  | ⟨0, _⟩ => show win0_1.index t (0 : Fin 2) * 21 ≤ (i 0).val ∧ (i 0).val < win0_1.index t (0 : Fin 2) * 21 + 21; omega
  | ⟨1, _⟩ => show win0_1.index t (1 : Fin 2) * 32000 ≤ (i 1).val ∧ (i 1).val < win0_1.index t (1 : Fin 2) * 32000 + 32000; omega

/-- The region's result array after the run. -/
theorem final (c : Dev nD) : (dats m 0 c).arrAt 1 cfg0.N = Wfun m c :=
  (dats m 0 c).arrAt_eq_of_cover 1 (Wfun m c) (fun t _ => flushed_eq m c t) (cover)

/-! ## The thirteen results -/

/-- Core `c`'s buffers when the host operations after the region start: the region's arrays as it left them, the rest as it found them. -/
abbrev Vw (c : Dev nD) : Valuation τ sig (Elt Ideal) :=
  Pipeline.withArrays spec0 c (V0 m c) fun w => (dats m 0 c).arrAt w cfg0.N

theorem Vw_result (c : Dev nD) (r : Fin 21) (e : Fin 4000000) :
    (Vw m c (Proc.devRef .tc main_v128) : FVec Ideal S21x4000000 .f32) (ix2 r e) = Cert.Beam.row r (pkOf m c e) := by
  have h := Pipeline.withArrays_arr spec0 launch0.win.arr_inj c (V0 m c) (fun w => (dats m 0 c).arrAt w cfg0.N) 1
  have h' : Vw m c (Proc.devRef .tc main_v128) = Wfun m c := h.trans (final m c)
  rw [h']; rfl

theorem Vw_nodeA (c : Dev nD) : Vw m c (Proc.devRef .tc main_v1) = Cert.Packed.nodeA (Vm m c (Proc.devRef .tc main_arg1)) :=
  (Pipeline.withArrays_of_ne spec0 c (V0 m c) _ main_v1 (by decide)).trans ((V_eq m c main_v1).trans (Cert.KernelIdeal.HostValue.nodeA_eq (Vm m c)))

theorem Vw_nodeB (c : Dev nD) : Vw m c (Proc.devRef .tc main_v3) = Cert.Packed.nodeB (Vm m c (Proc.devRef .tc main_arg1)) :=
  (Pipeline.withArrays_of_ne spec0 c (V0 m c) _ main_v3 (by decide)).trans ((V_eq m c main_v3).trans (Cert.KernelIdeal.HostValue.nodeB_eq (Vm m c)))

/-- What a result buffer holds at the end, as the host operations after the region compute it. -/
theorem tail_eq (c : Dev nD) (b : Ref sig .tc) :
    Pipeline.afterTail₀ cfgs (dats m) 0 (V0 m) [hostOps1] c b = StableHlo.after (hostOps1 (F := Ideal)) (Vw m c) (Proc.devRef .tc b) := by
  unfold Pipeline.afterTail₀
  rw [List.flatten_cons, List.flatten_nil, List.append_nil]

/-- The kernel program's run, read: each result buffer at its function of the argument arrays, the arguments unchanged. -/
theorem run : θ_run defs (onTc (τ := τ) (main (F := Ideal))) ⟨m, fun _ => 0, ρ⟩ fun r => ∀ c : Dev nD,
      r.2.mem ((c.tc : Thread nD τ).loc main_v168) = Cert.Spec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v134) = Cert.Spec.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v136) = Cert.Spec.out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v130) = Cert.Spec.out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v132) = Cert.Spec.out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v146) = Cert.Spec.out5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v153) = Cert.Spec.out6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v148) = Cert.Spec.out7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v144) = Cert.Spec.out8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v150) = Cert.Spec.out9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v138) = Cert.Spec.out10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v140) = Cert.Spec.out11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v142) = Cert.Spec.out12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h c).2 main_v168 (Pipeline.mem_restRefs_of main_v168 (by decide) (by decide))).trans ((tail_eq m c main_v168).trans ((Cert.KernelIdeal.HostValue.tail0 (Vw m c) (pkOf m c) (Vw_result m c)).trans (by rw [Vw_nodeA, Vw_nodeB]; rfl))),
      ((h c).2 main_v134 (Pipeline.mem_restRefs_of main_v134 (by decide) (by decide))).trans ((tail_eq m c main_v134).trans (Cert.KernelIdeal.HostValue.tail1 (Vw m c) (pkOf m c) (Vw_result m c))),
      ((h c).2 main_v136 (Pipeline.mem_restRefs_of main_v136 (by decide) (by decide))).trans ((tail_eq m c main_v136).trans (Cert.KernelIdeal.HostValue.tail2 (Vw m c) (pkOf m c) (Vw_result m c))),
      ((h c).2 main_v130 (Pipeline.mem_restRefs_of main_v130 (by decide) (by decide))).trans ((tail_eq m c main_v130).trans (Cert.KernelIdeal.HostValue.tail3 (Vw m c) (pkOf m c) (Vw_result m c))),
      ((h c).2 main_v132 (Pipeline.mem_restRefs_of main_v132 (by decide) (by decide))).trans ((tail_eq m c main_v132).trans (Cert.KernelIdeal.HostValue.tail4 (Vw m c) (pkOf m c) (Vw_result m c))),
      ((h c).2 main_v146 (Pipeline.mem_restRefs_of main_v146 (by decide) (by decide))).trans ((tail_eq m c main_v146).trans (Cert.KernelIdeal.HostValue.tail5 (Vw m c) (pkOf m c) (Vw_result m c))),
      ((h c).2 main_v153 (Pipeline.mem_restRefs_of main_v153 (by decide) (by decide))).trans ((tail_eq m c main_v153).trans (Cert.KernelIdeal.HostValue.tail6 (Vw m c) (pkOf m c) (Vw_result m c))),
      ((h c).2 main_v148 (Pipeline.mem_restRefs_of main_v148 (by decide) (by decide))).trans ((tail_eq m c main_v148).trans (Cert.KernelIdeal.HostValue.tail7 (Vw m c) (pkOf m c) (Vw_result m c))),
      ((h c).2 main_v144 (Pipeline.mem_restRefs_of main_v144 (by decide) (by decide))).trans ((tail_eq m c main_v144).trans (Cert.KernelIdeal.HostValue.tail8 (Vw m c) (pkOf m c) (Vw_result m c))),
      ((h c).2 main_v150 (Pipeline.mem_restRefs_of main_v150 (by decide) (by decide))).trans ((tail_eq m c main_v150).trans (Cert.KernelIdeal.HostValue.tail9 (Vw m c) (pkOf m c) (Vw_result m c))),
      ((h c).2 main_v138 (Pipeline.mem_restRefs_of main_v138 (by decide) (by decide))).trans ((tail_eq m c main_v138).trans (Cert.KernelIdeal.HostValue.tail10 (Vw m c) (pkOf m c) (Vw_result m c))),
      ((h c).2 main_v140 (Pipeline.mem_restRefs_of main_v140 (by decide) (by decide))).trans ((tail_eq m c main_v140).trans (Cert.KernelIdeal.HostValue.tail11 (Vw m c) (pkOf m c) (Vw_result m c))),
      ((h c).2 main_v142 (Pipeline.mem_restRefs_of main_v142 (by decide) (by decide))).trans ((tail_eq m c main_v142).trans (Cert.KernelIdeal.HostValue.tail12 (Vw m c) (pkOf m c) (Vw_result m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main (F := Ideal) m ρ)

end Cert.KernelIdeal.Value

end
-- ==== Proof.RefValue.lean ====
/-
  The reference's thirteen results are the beam's rows at every element's thirteen numbers, laid out per element or per
  element and component, and the nodal force table is the two ends' forces added at the two node numbers.

  The reference computes every quantity as a vector over the four million elements, by pointwise sums, differences,
  products, quotients, one root and one negation of earlier vectors, starting from ten gathered columns of the two node
  tables and the three section-property arrays.  Read at one element e, each such vector is the same operation on the
  earlier vectors' values at e; so, going through the vectors in the order they are computed, each is the matching
  quantity of `Cert.Beam` at the element's thirteen numbers.  A result that stacks vectors side by side reads, at
  (e, k), its k-th vector at e.  The mid-span moment divides by 2 where the beam multiplies by ½: the same number.
-/
import proofs.«416616_j12146167513831_4_alg».proof.Proof.Gen.ReferenceIdeal.Run
import proofs.«416616_j12146167513831_4_alg».proof.Proof.Packed
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Idealize.ShloMosaic.StableHlo
open Cert.ReferenceIdeal Cert.ReferenceIdeal.Gen Cert.ReferenceIdeal.Value

/-! ## Operations read at one index -/

section Pointwise
variable {s : Shape} {φ : FTy}

/-- A quotient of two vectors at an index is the quotient of the elements. -/
theorem hdivf_apply (a b : FVec Ideal s φ) (i : s.Idx) : Host.divf a b i = Ideal.div (a i) (b i) := rfl
/-- A root of a vector at an index is the root of the element. -/
theorem hsqrt_apply (a : FVec Ideal s φ) (i : s.Idx) : Host.sqrt a i = Ideal.sqrt (a i) := rfl
/-- A negated vector at an index is the negated element. -/
theorem hnegf_apply (a : FVec Ideal s φ) (i : s.Idx) : Host.negf a i = -(a i) := rfl

end Pointwise

/-- A float literal spread over all elements reads, at every element, the number it denotes. -/
theorem lit_apply (b : BitVec 32) (e : Fin 4000000) :
    broadcastInDim S4000000 ![] bcast_S_S4000000 (constant (F := Ideal) S_ .f32 b) (ix1 e) = Ideal.ofBits .f32 b := rfl

/-- 2.0 denotes the real number 2. -/
theorem k2_eq : Cert.Beam.k2 = ((2 : ℝ) : EReal) := by
  simp [Cert.Beam.k2, Ideal.ofBits, Ideal.ieee, -EReal.coe_mul]; norm_num

/-- 0.5 denotes the real number 1/2. -/
theorem half_eq : Cert.Beam.half = ((1 / 2 : ℝ) : EReal) := by
  simp [Cert.Beam.half, Ideal.ofBits, Ideal.ieee, -EReal.coe_mul]; norm_num

/-- Dividing by 2 is multiplying by ½, at the infinities too. -/
theorem div_two (x : EReal) : Ideal.div x Cert.Beam.k2 = x * Cert.Beam.half := by
  rw [k2_eq, half_eq]
  exact Ideal.div_coe (by norm_num) x

section Stacked
variable {α : Type}

/-- A vector laid out as a one-column array reads, in row `e`, its element `e`. -/
theorem column_apply (v : S4000000.Idx → α) (e : Fin 4000000) :
    broadcastInDim S4000000x1 ![0] bcast_S4000000_S4000000x1_0 v (ix2 e (0 : Fin 1)) = v (ix1 e) :=
  broadcastInDim_apply _ _ v (ix2 e 0) (ix1 e) fun a => match a with | ⟨0, _⟩ => rfl

/-! Three or six one-column arrays side by side read, at (e, k), the k-th vector at e: column k is piece k, the pieces
    before it are k columns wide together, and within the piece the column is 0. -/

theorem stack3_apply_0 (v0 v1 v2 : S4000000.Idx → α) (e : Fin 4000000) :
    concatenate S4000000x3 1 [⟨S4000000x1, (broadcastInDim S4000000x1 ![0] bcast_S4000000_S4000000x1_0 v0)⟩, ⟨S4000000x1, (broadcastInDim S4000000x1 ![0] bcast_S4000000_S4000000x1_0 v1)⟩, ⟨S4000000x1, (broadcastInDim S4000000x1 ![0] bcast_S4000000_S4000000x1_0 v2)⟩] concatenates_S4000000x1_S4000000x1_S4000000x1_S4000000x3_d1 (ix2 e (0 : Fin 3)) = v0 (ix1 e) :=
  (concatenate_apply_piece _ _ _ (ix2 e (0 : Fin 3)) 0 (by show (0 : Nat) < 3; decide) S4000000x1 _ rfl rfl 0 rfl (ix2 e (0 : Fin 1))
    (fun b hb => match b, hb with | ⟨0, _⟩, _ => rfl | ⟨1, _⟩, hb => absurd rfl hb) rfl).trans (column_apply v0 e)

theorem stack3_apply_1 (v0 v1 v2 : S4000000.Idx → α) (e : Fin 4000000) :
    concatenate S4000000x3 1 [⟨S4000000x1, (broadcastInDim S4000000x1 ![0] bcast_S4000000_S4000000x1_0 v0)⟩, ⟨S4000000x1, (broadcastInDim S4000000x1 ![0] bcast_S4000000_S4000000x1_0 v1)⟩, ⟨S4000000x1, (broadcastInDim S4000000x1 ![0] bcast_S4000000_S4000000x1_0 v2)⟩] concatenates_S4000000x1_S4000000x1_S4000000x1_S4000000x3_d1 (ix2 e (1 : Fin 3)) = v1 (ix1 e) :=
  (concatenate_apply_piece _ _ _ (ix2 e (1 : Fin 3)) 1 (by show (1 : Nat) < 3; decide) S4000000x1 _ rfl rfl 1 rfl (ix2 e (0 : Fin 1))
    (fun b hb => match b, hb with | ⟨0, _⟩, _ => rfl | ⟨1, _⟩, hb => absurd rfl hb) rfl).trans (column_apply v1 e)

theorem stack3_apply_2 (v0 v1 v2 : S4000000.Idx → α) (e : Fin 4000000) :
    concatenate S4000000x3 1 [⟨S4000000x1, (broadcastInDim S4000000x1 ![0] bcast_S4000000_S4000000x1_0 v0)⟩, ⟨S4000000x1, (broadcastInDim S4000000x1 ![0] bcast_S4000000_S4000000x1_0 v1)⟩, ⟨S4000000x1, (broadcastInDim S4000000x1 ![0] bcast_S4000000_S4000000x1_0 v2)⟩] concatenates_S4000000x1_S4000000x1_S4000000x1_S4000000x3_d1 (ix2 e (2 : Fin 3)) = v2 (ix1 e) :=
  (concatenate_apply_piece _ _ _ (ix2 e (2 : Fin 3)) 2 (by show (2 : Nat) < 3; decide) S4000000x1 _ rfl rfl 2 rfl (ix2 e (0 : Fin 1))
    (fun b hb => match b, hb with | ⟨0, _⟩, _ => rfl | ⟨1, _⟩, hb => absurd rfl hb) rfl).trans (column_apply v2 e)

theorem stack6_apply_0 (v0 v1 v2 v3 v4 v5 : S4000000.Idx → α) (e : Fin 4000000) :
    concatenate S4000000x6 1 [⟨S4000000x1, (broadcastInDim S4000000x1 ![0] bcast_S4000000_S4000000x1_0 v0)⟩, ⟨S4000000x1, (broadcastInDim S4000000x1 ![0] bcast_S4000000_S4000000x1_0 v1)⟩, ⟨S4000000x1, (broadcastInDim S4000000x1 ![0] bcast_S4000000_S4000000x1_0 v2)⟩, ⟨S4000000x1, (broadcastInDim S4000000x1 ![0] bcast_S4000000_S4000000x1_0 v3)⟩, ⟨S4000000x1, (broadcastInDim S4000000x1 ![0] bcast_S4000000_S4000000x1_0 v4)⟩, ⟨S4000000x1, (broadcastInDim S4000000x1 ![0] bcast_S4000000_S4000000x1_0 v5)⟩] concatenates_S4000000x1_S4000000x1_S4000000x1_S4000000x1_S4000000x1_S4000000x1_S4000000x6_d1 (ix2 e (0 : Fin 6)) = v0 (ix1 e) :=
  (concatenate_apply_piece _ _ _ (ix2 e (0 : Fin 6)) 0 (by show (0 : Nat) < 6; decide) S4000000x1 _ rfl rfl 0 rfl (ix2 e (0 : Fin 1))
    (fun b hb => match b, hb with | ⟨0, _⟩, _ => rfl | ⟨1, _⟩, hb => absurd rfl hb) rfl).trans (column_apply v0 e)

theorem stack6_apply_1 (v0 v1 v2 v3 v4 v5 : S4000000.Idx → α) (e : Fin 4000000) :
    concatenate S4000000x6 1 [⟨S4000000x1, (broadcastInDim S4000000x1 ![0] bcast_S4000000_S4000000x1_0 v0)⟩, ⟨S4000000x1, (broadcastInDim S4000000x1 ![0] bcast_S4000000_S4000000x1_0 v1)⟩, ⟨S4000000x1, (broadcastInDim S4000000x1 ![0] bcast_S4000000_S4000000x1_0 v2)⟩, ⟨S4000000x1, (broadcastInDim S4000000x1 ![0] bcast_S4000000_S4000000x1_0 v3)⟩, ⟨S4000000x1, (broadcastInDim S4000000x1 ![0] bcast_S4000000_S4000000x1_0 v4)⟩, ⟨S4000000x1, (broadcastInDim S4000000x1 ![0] bcast_S4000000_S4000000x1_0 v5)⟩] concatenates_S4000000x1_S4000000x1_S4000000x1_S4000000x1_S4000000x1_S4000000x1_S4000000x6_d1 (ix2 e (1 : Fin 6)) = v1 (ix1 e) :=
  (concatenate_apply_piece _ _ _ (ix2 e (1 : Fin 6)) 1 (by show (1 : Nat) < 6; decide) S4000000x1 _ rfl rfl 1 rfl (ix2 e (0 : Fin 1))
    (fun b hb => match b, hb with | ⟨0, _⟩, _ => rfl | ⟨1, _⟩, hb => absurd rfl hb) rfl).trans (column_apply v1 e)

theorem stack6_apply_2 (v0 v1 v2 v3 v4 v5 : S4000000.Idx → α) (e : Fin 4000000) :
    concatenate S4000000x6 1 [⟨S4000000x1, (broadcastInDim S4000000x1 ![0] bcast_S4000000_S4000000x1_0 v0)⟩, ⟨S4000000x1, (broadcastInDim S4000000x1 ![0] bcast_S4000000_S4000000x1_0 v1)⟩, ⟨S4000000x1, (broadcastInDim S4000000x1 ![0] bcast_S4000000_S4000000x1_0 v2)⟩, ⟨S4000000x1, (broadcastInDim S4000000x1 ![0] bcast_S4000000_S4000000x1_0 v3)⟩, ⟨S4000000x1, (broadcastInDim S4000000x1 ![0] bcast_S4000000_S4000000x1_0 v4)⟩, ⟨S4000000x1, (broadcastInDim S4000000x1 ![0] bcast_S4000000_S4000000x1_0 v5)⟩] concatenates_S4000000x1_S4000000x1_S4000000x1_S4000000x1_S4000000x1_S4000000x1_S4000000x6_d1 (ix2 e (2 : Fin 6)) = v2 (ix1 e) :=
  (concatenate_apply_piece _ _ _ (ix2 e (2 : Fin 6)) 2 (by show (2 : Nat) < 6; decide) S4000000x1 _ rfl rfl 2 rfl (ix2 e (0 : Fin 1))
    (fun b hb => match b, hb with | ⟨0, _⟩, _ => rfl | ⟨1, _⟩, hb => absurd rfl hb) rfl).trans (column_apply v2 e)

theorem stack6_apply_3 (v0 v1 v2 v3 v4 v5 : S4000000.Idx → α) (e : Fin 4000000) :
    concatenate S4000000x6 1 [⟨S4000000x1, (broadcastInDim S4000000x1 ![0] bcast_S4000000_S4000000x1_0 v0)⟩, ⟨S4000000x1, (broadcastInDim S4000000x1 ![0] bcast_S4000000_S4000000x1_0 v1)⟩, ⟨S4000000x1, (broadcastInDim S4000000x1 ![0] bcast_S4000000_S4000000x1_0 v2)⟩, ⟨S4000000x1, (broadcastInDim S4000000x1 ![0] bcast_S4000000_S4000000x1_0 v3)⟩, ⟨S4000000x1, (broadcastInDim S4000000x1 ![0] bcast_S4000000_S4000000x1_0 v4)⟩, ⟨S4000000x1, (broadcastInDim S4000000x1 ![0] bcast_S4000000_S4000000x1_0 v5)⟩] concatenates_S4000000x1_S4000000x1_S4000000x1_S4000000x1_S4000000x1_S4000000x1_S4000000x6_d1 (ix2 e (3 : Fin 6)) = v3 (ix1 e) :=
  (concatenate_apply_piece _ _ _ (ix2 e (3 : Fin 6)) 3 (by show (3 : Nat) < 6; decide) S4000000x1 _ rfl rfl 3 rfl (ix2 e (0 : Fin 1))
    (fun b hb => match b, hb with | ⟨0, _⟩, _ => rfl | ⟨1, _⟩, hb => absurd rfl hb) rfl).trans (column_apply v3 e)

theorem stack6_apply_4 (v0 v1 v2 v3 v4 v5 : S4000000.Idx → α) (e : Fin 4000000) :
    concatenate S4000000x6 1 [⟨S4000000x1, (broadcastInDim S4000000x1 ![0] bcast_S4000000_S4000000x1_0 v0)⟩, ⟨S4000000x1, (broadcastInDim S4000000x1 ![0] bcast_S4000000_S4000000x1_0 v1)⟩, ⟨S4000000x1, (broadcastInDim S4000000x1 ![0] bcast_S4000000_S4000000x1_0 v2)⟩, ⟨S4000000x1, (broadcastInDim S4000000x1 ![0] bcast_S4000000_S4000000x1_0 v3)⟩, ⟨S4000000x1, (broadcastInDim S4000000x1 ![0] bcast_S4000000_S4000000x1_0 v4)⟩, ⟨S4000000x1, (broadcastInDim S4000000x1 ![0] bcast_S4000000_S4000000x1_0 v5)⟩] concatenates_S4000000x1_S4000000x1_S4000000x1_S4000000x1_S4000000x1_S4000000x1_S4000000x6_d1 (ix2 e (4 : Fin 6)) = v4 (ix1 e) :=
  (concatenate_apply_piece _ _ _ (ix2 e (4 : Fin 6)) 4 (by show (4 : Nat) < 6; decide) S4000000x1 _ rfl rfl 4 rfl (ix2 e (0 : Fin 1))
    (fun b hb => match b, hb with | ⟨0, _⟩, _ => rfl | ⟨1, _⟩, hb => absurd rfl hb) rfl).trans (column_apply v4 e)

theorem stack6_apply_5 (v0 v1 v2 v3 v4 v5 : S4000000.Idx → α) (e : Fin 4000000) :
    concatenate S4000000x6 1 [⟨S4000000x1, (broadcastInDim S4000000x1 ![0] bcast_S4000000_S4000000x1_0 v0)⟩, ⟨S4000000x1, (broadcastInDim S4000000x1 ![0] bcast_S4000000_S4000000x1_0 v1)⟩, ⟨S4000000x1, (broadcastInDim S4000000x1 ![0] bcast_S4000000_S4000000x1_0 v2)⟩, ⟨S4000000x1, (broadcastInDim S4000000x1 ![0] bcast_S4000000_S4000000x1_0 v3)⟩, ⟨S4000000x1, (broadcastInDim S4000000x1 ![0] bcast_S4000000_S4000000x1_0 v4)⟩, ⟨S4000000x1, (broadcastInDim S4000000x1 ![0] bcast_S4000000_S4000000x1_0 v5)⟩] concatenates_S4000000x1_S4000000x1_S4000000x1_S4000000x1_S4000000x1_S4000000x1_S4000000x6_d1 (ix2 e (5 : Fin 6)) = v5 (ix1 e) :=
  (concatenate_apply_piece _ _ _ (ix2 e (5 : Fin 6)) 5 (by show (5 : Nat) < 6; decide) S4000000x1 _ rfl rfl 5 rfl (ix2 e (0 : Fin 1))
    (fun b hb => match b, hb with | ⟨0, _⟩, _ => rfl | ⟨1, _⟩, hb => absurd rfl hb) rfl).trans (column_apply v5 e)

end Stacked

variable (V0 : Valuation τ sig (Elt Ideal))

/-- Every element's thirteen numbers, from the argument buffers of a valuation. -/
abbrev pkOf (e : Fin 4000000) : Cert.Beam.In :=
  Cert.Packed.pk (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) e

/-! ## The two node numbers and the gathered columns

The reference's two node-number vectors are the two columns of the connectivity table, and each gathered vector is one
column of a node table read at every element's (wrapped) node number: the element's numbers 4 to 9. -/

/-- The first node-number vector is column 0 of the connectivity table. -/
theorem res1_eq : res_main_v1 V0 = Cert.Packed.nodeA (V0 (Proc.devRef .tc main_arg1)) := rfl
/-- The second is column 1. -/
theorem res3_eq : res_main_v3 V0 = Cert.Packed.nodeB (V0 (Proc.devRef .tc main_arg1)) := rfl

/-- Node A's displacement along x. -/
theorem res68_apply (e : Fin 4000000) : res_main_v68 V0 (ix1 e) = pkOf V0 e 4 := rfl
/-- Node A's displacement along z. -/
theorem res79_apply (e : Fin 4000000) : res_main_v79 V0 (ix1 e) = pkOf V0 e 5 := rfl
/-- Node A's rotation. -/
theorem res90_apply (e : Fin 4000000) : res_main_v90 V0 (ix1 e) = pkOf V0 e 6 := rfl
/-- Node B's displacement along x. -/
theorem res101_apply (e : Fin 4000000) : res_main_v101 V0 (ix1 e) = pkOf V0 e 7 := rfl
/-- Node B's displacement along z. -/
theorem res112_apply (e : Fin 4000000) : res_main_v112 V0 (ix1 e) = pkOf V0 e 8 := rfl
/-- Node B's rotation. -/
theorem res123_apply (e : Fin 4000000) : res_main_v123 V0 (ix1 e) = pkOf V0 e 9 := rfl

/-! ## The undeformed geometry and the stiffnesses -/

/-- The chord's x-extent: B's x less A's x. -/
theorem res26_apply (e : Fin 4000000) : res_main_v26 V0 (ix1 e) = Cert.Beam.dx0 (pkOf V0 e) := rfl
/-- The chord's z-extent: B's z less A's z. -/
theorem res49_apply (e : Fin 4000000) : res_main_v49 V0 (ix1 e) = Cert.Beam.dz0 (pkOf V0 e) := rfl

/-- The chord's length: the root of the sum of the two squared extents. -/
theorem res53_apply (e : Fin 4000000) : res_main_v53 V0 (ix1 e) = Cert.Beam.l0 (pkOf V0 e) := by
  unfold res_main_v53
  simp only [hsqrt_apply, addf_apply, mulf_apply, res26_apply V0 e, res49_apply V0 e]
  rfl

/-- The direction cosine: the x-extent over the length. -/
theorem res54_apply (e : Fin 4000000) : res_main_v54 V0 (ix1 e) = Cert.Beam.c (pkOf V0 e) := by
  unfold res_main_v54
  simp only [hdivf_apply, res26_apply V0 e, res53_apply V0 e]
  rfl

/-- The direction sine: the z-extent over the length. -/
theorem res55_apply (e : Fin 4000000) : res_main_v55 V0 (ix1 e) = Cert.Beam.s (pkOf V0 e) := by
  unfold res_main_v55
  simp only [hdivf_apply, res49_apply V0 e, res53_apply V0 e]
  rfl

/-- The axial stiffness E·A. -/
theorem res56_apply (e : Fin 4000000) : res_main_v56 V0 (ix1 e) = Cert.Beam.EA (pkOf V0 e) := rfl
/-- The bending stiffness E·I. -/
theorem res57_apply (e : Fin 4000000) : res_main_v57 V0 (ix1 e) = Cert.Beam.EI (pkOf V0 e) := rfl

/-! ## The end displacements in the element's frame, and the powers of the length -/

/-- Node A's axial displacement: c·ux + s·uz. -/
theorem res126_apply (e : Fin 4000000) : res_main_v126 V0 (ix1 e) = Cert.Beam.ua (pkOf V0 e) := by
  unfold res_main_v126
  simp only [addf_apply, mulf_apply, res54_apply V0 e, res55_apply V0 e, res68_apply V0 e, res79_apply V0 e]
  rfl

/-- Node A's transverse displacement: (−s)·ux + c·uz. -/
theorem res130_apply (e : Fin 4000000) : res_main_v130 V0 (ix1 e) = Cert.Beam.wa (pkOf V0 e) := by
  unfold res_main_v130
  simp only [addf_apply, mulf_apply, hnegf_apply, res54_apply V0 e, res55_apply V0 e, res68_apply V0 e, res79_apply V0 e]
  rfl

/-- Node B's axial displacement. -/
theorem res133_apply (e : Fin 4000000) : res_main_v133 V0 (ix1 e) = Cert.Beam.ub (pkOf V0 e) := by
  unfold res_main_v133
  simp only [addf_apply, mulf_apply, res54_apply V0 e, res55_apply V0 e, res101_apply V0 e, res112_apply V0 e]
  rfl

/-- Node B's transverse displacement. -/
theorem res137_apply (e : Fin 4000000) : res_main_v137 V0 (ix1 e) = Cert.Beam.wb (pkOf V0 e) := by
  unfold res_main_v137
  simp only [addf_apply, mulf_apply, hnegf_apply, res54_apply V0 e, res55_apply V0 e, res101_apply V0 e, res112_apply V0 e]
  rfl

/-- The squared length. -/
theorem res138_apply (e : Fin 4000000) : res_main_v138 V0 (ix1 e) = Cert.Beam.L2 (pkOf V0 e) := by
  unfold res_main_v138
  simp only [mulf_apply, res53_apply V0 e]
  rfl

/-- The cubed length: the square times the length. -/
theorem res139_apply (e : Fin 4000000) : res_main_v139 V0 (ix1 e) = Cert.Beam.L3 (pkOf V0 e) := by
  unfold res_main_v139
  simp only [mulf_apply, res138_apply V0 e, res53_apply V0 e]
  rfl

/-! ## The six end forces -/

/-- The axial force at A: (EA / l0)·(ua − ub). -/
theorem res142_apply (e : Fin 4000000) : res_main_v142 V0 (ix1 e) = Cert.Beam.f0 (pkOf V0 e) := by
  unfold res_main_v142
  simp only [mulf_apply, subf_apply, hdivf_apply, res56_apply V0 e, res53_apply V0 e, res126_apply V0 e, res133_apply V0 e]
  rfl

/-- The shear force at A: (12·EI / l0³)·(wa − wb) + (6·EI / l0²)·(θA + θB). -/
theorem res153_apply (e : Fin 4000000) : res_main_v153 V0 (ix1 e) = Cert.Beam.f1 (pkOf V0 e) := by
  unfold res_main_v153
  simp only [addf_apply, mulf_apply, subf_apply, hdivf_apply, lit_apply, res57_apply V0 e, res139_apply V0 e, res130_apply V0 e, res137_apply V0 e, res138_apply V0 e, res90_apply V0 e, res123_apply V0 e]
  rfl

/-- The moment at A: (6·EI / l0²)·(wa − wb) + (EI / l0)·(4·θA + 2·θB). -/
theorem res166_apply (e : Fin 4000000) : res_main_v166 V0 (ix1 e) = Cert.Beam.f2 (pkOf V0 e) := by
  unfold res_main_v166
  simp only [addf_apply, mulf_apply, subf_apply, hdivf_apply, lit_apply, res57_apply V0 e, res138_apply V0 e, res130_apply V0 e, res137_apply V0 e, res53_apply V0 e, res90_apply V0 e, res123_apply V0 e]
  rfl

/-- The axial force at B: (EA / l0)·(ub − ua). -/
theorem res169_apply (e : Fin 4000000) : res_main_v169 V0 (ix1 e) = Cert.Beam.f3 (pkOf V0 e) := by
  unfold res_main_v169
  simp only [mulf_apply, subf_apply, hdivf_apply, res56_apply V0 e, res53_apply V0 e, res133_apply V0 e, res126_apply V0 e]
  rfl

/-- The shear force at B: (12·EI / l0³)·(wb − wa) − (6·EI / l0²)·(θA + θB). -/
theorem res180_apply (e : Fin 4000000) : res_main_v180 V0 (ix1 e) = Cert.Beam.f4 (pkOf V0 e) := by
  unfold res_main_v180
  simp only [addf_apply, mulf_apply, subf_apply, hdivf_apply, lit_apply, res57_apply V0 e, res139_apply V0 e, res137_apply V0 e, res130_apply V0 e, res138_apply V0 e, res90_apply V0 e, res123_apply V0 e]
  rfl

/-- The moment at B: (6·EI / l0²)·(wa − wb) + (EI / l0)·(2·θA + 4·θB). -/
theorem res193_apply (e : Fin 4000000) : res_main_v193 V0 (ix1 e) = Cert.Beam.f5 (pkOf V0 e) := by
  unfold res_main_v193
  simp only [addf_apply, mulf_apply, subf_apply, hdivf_apply, lit_apply, res57_apply V0 e, res138_apply V0 e, res130_apply V0 e, res137_apply V0 e, res53_apply V0 e, res90_apply V0 e, res123_apply V0 e]
  rfl

/-! ## The thirteen results

One theorem per result of `Cert.ReferenceIdeal.Value.run`, in its order; each left side is the term `run` states for
that result with the launch contents read as `V0` (for the named ones, `res_main_vN V0`). -/

/-- Node A's force in the global frame, per element and component: (c·f0 − s·f1, s·f0 + c·f1, f2). -/
theorem out3 : concatenate S4000000x3 1 [⟨S4000000x1, (broadcastInDim S4000000x1 ![0] bcast_S4000000_S4000000x1_0 (subf (mulf (res_main_v54 V0) (res_main_v142 V0)) (mulf (res_main_v55 V0) (res_main_v153 V0))))⟩, ⟨S4000000x1, (broadcastInDim S4000000x1 ![0] bcast_S4000000_S4000000x1_0 (addf (mulf (res_main_v55 V0) (res_main_v142 V0)) (mulf (res_main_v54 V0) (res_main_v153 V0))))⟩, ⟨S4000000x1, (broadcastInDim S4000000x1 ![0] bcast_S4000000_S4000000x1_0 (res_main_v166 V0))⟩] concatenates_S4000000x1_S4000000x1_S4000000x1_S4000000x3_d1 = Cert.Packed.arr3 (pkOf V0) 0 (by decide) := by
  funext j
  obtain ⟨e, col, rfl⟩ : ∃ (e : Fin 4000000) (col : Fin 3), j = ix2 e col := ⟨j 0, j 1, eq_ix2 j⟩
  match col with
  | ⟨0, _⟩ =>
    refine (stack3_apply_0 _ _ _ e).trans ?_
    simp only [subf_apply, mulf_apply, res54_apply V0 e, res142_apply V0 e, res55_apply V0 e, res153_apply V0 e]
    rfl
  | ⟨1, _⟩ =>
    refine (stack3_apply_1 _ _ _ e).trans ?_
    simp only [addf_apply, mulf_apply, res55_apply V0 e, res142_apply V0 e, res54_apply V0 e, res153_apply V0 e]
    rfl
  | ⟨2, _⟩ => exact (stack3_apply_2 _ _ _ e).trans (res166_apply V0 e)

/-- Node B's force in the global frame: (c·f3 − s·f4, s·f3 + c·f4, f5). -/
theorem out4 : concatenate S4000000x3 1 [⟨S4000000x1, (broadcastInDim S4000000x1 ![0] bcast_S4000000_S4000000x1_0 (subf (mulf (res_main_v54 V0) (res_main_v169 V0)) (mulf (res_main_v55 V0) (res_main_v180 V0))))⟩, ⟨S4000000x1, (broadcastInDim S4000000x1 ![0] bcast_S4000000_S4000000x1_0 (addf (mulf (res_main_v55 V0) (res_main_v169 V0)) (mulf (res_main_v54 V0) (res_main_v180 V0))))⟩, ⟨S4000000x1, (broadcastInDim S4000000x1 ![0] bcast_S4000000_S4000000x1_0 (res_main_v193 V0))⟩] concatenates_S4000000x1_S4000000x1_S4000000x1_S4000000x3_d1 = Cert.Packed.arr3 (pkOf V0) 3 (by decide) := by
  funext j
  obtain ⟨e, col, rfl⟩ : ∃ (e : Fin 4000000) (col : Fin 3), j = ix2 e col := ⟨j 0, j 1, eq_ix2 j⟩
  match col with
  | ⟨0, _⟩ =>
    refine (stack3_apply_0 _ _ _ e).trans ?_
    simp only [subf_apply, mulf_apply, res54_apply V0 e, res169_apply V0 e, res55_apply V0 e, res180_apply V0 e]
    rfl
  | ⟨1, _⟩ =>
    refine (stack3_apply_1 _ _ _ e).trans ?_
    simp only [addf_apply, mulf_apply, res55_apply V0 e, res169_apply V0 e, res54_apply V0 e, res180_apply V0 e]
    rfl
  | ⟨2, _⟩ => exact (stack3_apply_2 _ _ _ e).trans (res193_apply V0 e)

/-- The nodal force table: the two ends' global forces added into a zero table at the two node numbers. The two
    per-element force arrays are the previous two results, and the two index arrays are the wrapped node numbers. -/
theorem out0 : Host.scatterAdd scatter_S1000000x3_S4000000x1_S4000000x3_1_0_0_1 (Host.scatterAdd scatter_S1000000x3_S4000000x1_S4000000x3_1_0_0_1 (broadcastInDim S1000000x3 ![] bcast_S_S1000000x3 (constant S_ .f32 0x00000000#32)) (broadcastInDim S4000000x1 ![0] bcast_S4000000_S4000000x1_0 (select (cmpi .slt (res_main_v1 V0) (broadcastInDim S4000000 ![] bcast_S_S4000000 (constantI S_ 32 0#32))) (addi (res_main_v1 V0) (broadcastInDim S4000000 ![] bcast_S_S4000000 (constantI S_ 32 1000000#32))) (res_main_v1 V0))) (concatenate S4000000x3 1 [⟨S4000000x1, (broadcastInDim S4000000x1 ![0] bcast_S4000000_S4000000x1_0 (subf (mulf (res_main_v54 V0) (res_main_v142 V0)) (mulf (res_main_v55 V0) (res_main_v153 V0))))⟩, ⟨S4000000x1, (broadcastInDim S4000000x1 ![0] bcast_S4000000_S4000000x1_0 (addf (mulf (res_main_v55 V0) (res_main_v142 V0)) (mulf (res_main_v54 V0) (res_main_v153 V0))))⟩, ⟨S4000000x1, (broadcastInDim S4000000x1 ![0] bcast_S4000000_S4000000x1_0 (res_main_v166 V0))⟩] concatenates_S4000000x1_S4000000x1_S4000000x1_S4000000x3_d1)) (broadcastInDim S4000000x1 ![0] bcast_S4000000_S4000000x1_0 (select (cmpi .slt (res_main_v3 V0) (broadcastInDim S4000000 ![] bcast_S_S4000000 (constantI S_ 32 0#32))) (addi (res_main_v3 V0) (broadcastInDim S4000000 ![] bcast_S_S4000000 (constantI S_ 32 1000000#32))) (res_main_v3 V0))) (concatenate S4000000x3 1 [⟨S4000000x1, (broadcastInDim S4000000x1 ![0] bcast_S4000000_S4000000x1_0 (subf (mulf (res_main_v54 V0) (res_main_v169 V0)) (mulf (res_main_v55 V0) (res_main_v180 V0))))⟩, ⟨S4000000x1, (broadcastInDim S4000000x1 ![0] bcast_S4000000_S4000000x1_0 (addf (mulf (res_main_v55 V0) (res_main_v169 V0)) (mulf (res_main_v54 V0) (res_main_v180 V0))))⟩, ⟨S4000000x1, (broadcastInDim S4000000x1 ![0] bcast_S4000000_S4000000x1_0 (res_main_v193 V0))⟩] concatenates_S4000000x1_S4000000x1_S4000000x1_S4000000x3_d1) = Cert.Packed.nodal (Cert.Packed.nodeA (V0 (Proc.devRef .tc main_arg1))) (Cert.Packed.nodeB (V0 (Proc.devRef .tc main_arg1))) (Cert.Packed.arr3 (pkOf V0) 0 (by decide)) (Cert.Packed.arr3 (pkOf V0) 3 (by decide)) := by
  rw [← out3 V0, ← out4 V0]
  rfl

/-- The six local end forces, per element and component. -/
theorem out1 : concatenate S4000000x6 1 [⟨S4000000x1, (broadcastInDim S4000000x1 ![0] bcast_S4000000_S4000000x1_0 (res_main_v142 V0))⟩, ⟨S4000000x1, (broadcastInDim S4000000x1 ![0] bcast_S4000000_S4000000x1_0 (res_main_v153 V0))⟩, ⟨S4000000x1, (broadcastInDim S4000000x1 ![0] bcast_S4000000_S4000000x1_0 (res_main_v166 V0))⟩, ⟨S4000000x1, (broadcastInDim S4000000x1 ![0] bcast_S4000000_S4000000x1_0 (res_main_v169 V0))⟩, ⟨S4000000x1, (broadcastInDim S4000000x1 ![0] bcast_S4000000_S4000000x1_0 (res_main_v180 V0))⟩, ⟨S4000000x1, (broadcastInDim S4000000x1 ![0] bcast_S4000000_S4000000x1_0 (res_main_v193 V0))⟩] concatenates_S4000000x1_S4000000x1_S4000000x1_S4000000x1_S4000000x1_S4000000x1_S4000000x6_d1 = Cert.Packed.arr6 (pkOf V0) 6 (by decide) := by
  funext j
  obtain ⟨e, col, rfl⟩ : ∃ (e : Fin 4000000) (col : Fin 6), j = ix2 e col := ⟨j 0, j 1, eq_ix2 j⟩
  match col with
  | ⟨0, _⟩ => exact (stack6_apply_0 _ _ _ _ _ _ e).trans (res142_apply V0 e)
  | ⟨1, _⟩ => exact (stack6_apply_1 _ _ _ _ _ _ e).trans (res153_apply V0 e)
  | ⟨2, _⟩ => exact (stack6_apply_2 _ _ _ _ _ _ e).trans (res166_apply V0 e)
  | ⟨3, _⟩ => exact (stack6_apply_3 _ _ _ _ _ _ e).trans (res169_apply V0 e)
  | ⟨4, _⟩ => exact (stack6_apply_4 _ _ _ _ _ _ e).trans (res180_apply V0 e)
  | ⟨5, _⟩ => exact (stack6_apply_5 _ _ _ _ _ _ e).trans (res193_apply V0 e)

/-- The six local end displacements, per element and component. -/
theorem out2 : concatenate S4000000x6 1 [⟨S4000000x1, (broadcastInDim S4000000x1 ![0] bcast_S4000000_S4000000x1_0 (res_main_v126 V0))⟩, ⟨S4000000x1, (broadcastInDim S4000000x1 ![0] bcast_S4000000_S4000000x1_0 (res_main_v130 V0))⟩, ⟨S4000000x1, (broadcastInDim S4000000x1 ![0] bcast_S4000000_S4000000x1_0 (res_main_v90 V0))⟩, ⟨S4000000x1, (broadcastInDim S4000000x1 ![0] bcast_S4000000_S4000000x1_0 (res_main_v133 V0))⟩, ⟨S4000000x1, (broadcastInDim S4000000x1 ![0] bcast_S4000000_S4000000x1_0 (res_main_v137 V0))⟩, ⟨S4000000x1, (broadcastInDim S4000000x1 ![0] bcast_S4000000_S4000000x1_0 (res_main_v123 V0))⟩] concatenates_S4000000x1_S4000000x1_S4000000x1_S4000000x1_S4000000x1_S4000000x1_S4000000x6_d1 = Cert.Packed.arr6 (pkOf V0) 12 (by decide) := by
  funext j
  obtain ⟨e, col, rfl⟩ : ∃ (e : Fin 4000000) (col : Fin 6), j = ix2 e col := ⟨j 0, j 1, eq_ix2 j⟩
  match col with
  | ⟨0, _⟩ => exact (stack6_apply_0 _ _ _ _ _ _ e).trans (res126_apply V0 e)
  | ⟨1, _⟩ => exact (stack6_apply_1 _ _ _ _ _ _ e).trans (res130_apply V0 e)
  | ⟨2, _⟩ => exact (stack6_apply_2 _ _ _ _ _ _ e).trans (res90_apply V0 e)
  | ⟨3, _⟩ => exact (stack6_apply_3 _ _ _ _ _ _ e).trans (res133_apply V0 e)
  | ⟨4, _⟩ => exact (stack6_apply_4 _ _ _ _ _ _ e).trans (res137_apply V0 e)
  | ⟨5, _⟩ => exact (stack6_apply_5 _ _ _ _ _ _ e).trans (res123_apply V0 e)

/-- The axial force: the local end force f3. -/
theorem out5 : res_main_v169 V0 = Cert.Packed.vec (pkOf V0) 9 := by
  funext j
  obtain ⟨e, rfl⟩ : ∃ e, j = ix1 e := ⟨j 0, eq_ix1 j⟩
  exact res169_apply V0 e

/-- The mid-span moment: (f5 − f2) / 2, which is (f5 − f2)·½. -/
theorem out6 : Host.divf (subf (res_main_v193 V0) (res_main_v166 V0)) (broadcastInDim S4000000 ![] bcast_S_S4000000 (constant S_ .f32 0x40000000#32)) = Cert.Packed.midVec (pkOf V0) := by
  funext j
  obtain ⟨e, rfl⟩ : ∃ e, j = ix1 e := ⟨j 0, eq_ix1 j⟩
  simp only [hdivf_apply, subf_apply, lit_apply, res193_apply V0 e, res166_apply V0 e]
  exact div_two _

/-- The shear force: the local end force f4. -/
theorem out7 : res_main_v180 V0 = Cert.Packed.vec (pkOf V0) 10 := by
  funext j
  obtain ⟨e, rfl⟩ : ∃ e, j = ix1 e := ⟨j 0, eq_ix1 j⟩
  exact res180_apply V0 e

/-- The moment at end A: f2. -/
theorem out8 : res_main_v166 V0 = Cert.Packed.vec (pkOf V0) 8 := by
  funext j
  obtain ⟨e, rfl⟩ : ∃ e, j = ix1 e := ⟨j 0, eq_ix1 j⟩
  exact res166_apply V0 e

/-- The moment at end B: f5. -/
theorem out9 : res_main_v193 V0 = Cert.Packed.vec (pkOf V0) 11 := by
  funext j
  obtain ⟨e, rfl⟩ : ∃ e, j = ix1 e := ⟨j 0, eq_ix1 j⟩
  exact res193_apply V0 e

/-- The chord's length. -/
theorem out10 : res_main_v53 V0 = Cert.Packed.vec (pkOf V0) 18 := by
  funext j
  obtain ⟨e, rfl⟩ : ∃ e, j = ix1 e := ⟨j 0, eq_ix1 j⟩
  exact res53_apply V0 e

/-- The direction cosine. -/
theorem out11 : res_main_v54 V0 = Cert.Packed.vec (pkOf V0) 19 := by
  funext j
  obtain ⟨e, rfl⟩ : ∃ e, j = ix1 e := ⟨j 0, eq_ix1 j⟩
  exact res54_apply V0 e

/-- The direction sine. -/
theorem out12 : res_main_v55 V0 = Cert.Packed.vec (pkOf V0) 20 := by
  funext j
  obtain ⟨e, rfl⟩ : ∃ e, j = ix1 e := ⟨j 0, eq_ix1 j⟩
  exact res55_apply V0 e

end Cert.ReferenceIdeal.RefValue

end
-- ==== Proof.RefRun.lean ====
/-
  The reference program's run, read: each result buffer at its function of the argument arrays, the arguments unchanged.
-/
import proofs.«416616_j12146167513831_4_alg».proof.Proof.RefValue
import proofs.«416616_j12146167513831_4_alg».proof.Proof.Spec

noncomputable section

namespace Cert.ReferenceIdeal.RefRun

open Idealize.ShloMosaic Idealize.ShloMosaic.TcCoe Idealize.SL.Sem Idealize.ShloMosaic.StableHlo
open Cert.ReferenceIdeal Cert.ReferenceIdeal.Gen

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v228) = Cert.Spec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v235) = Cert.Spec.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v242) = Cert.Spec.out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v203) = Cert.Spec.out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v213) = Cert.Spec.out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v169) = Cert.Spec.out5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v245) = Cert.Spec.out6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v180) = Cert.Spec.out7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v166) = Cert.Spec.out8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v193) = Cert.Spec.out9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v53) = Cert.Spec.out10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v54) = Cert.Spec.out11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧       r.2.mem ((c.tc : Thread nD τ).loc main_v55) = Cert.Spec.out12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      (h c).1.trans (Cert.ReferenceIdeal.RefValue.out0 (launchContents m c)),
      (h c).2.1.trans (Cert.ReferenceIdeal.RefValue.out1 (launchContents m c)),
      (h c).2.2.1.trans (Cert.ReferenceIdeal.RefValue.out2 (launchContents m c)),
      (h c).2.2.2.1.trans (Cert.ReferenceIdeal.RefValue.out3 (launchContents m c)),
      (h c).2.2.2.2.1.trans (Cert.ReferenceIdeal.RefValue.out4 (launchContents m c)),
      (h c).2.2.2.2.2.1.trans (Cert.ReferenceIdeal.RefValue.out5 (launchContents m c)),
      (h c).2.2.2.2.2.2.1.trans (Cert.ReferenceIdeal.RefValue.out6 (launchContents m c)),
      (h c).2.2.2.2.2.2.2.1.trans (Cert.ReferenceIdeal.RefValue.out7 (launchContents m c)),
      (h c).2.2.2.2.2.2.2.2.1.trans (Cert.ReferenceIdeal.RefValue.out8 (launchContents m c)),
      (h c).2.2.2.2.2.2.2.2.2.1.trans (Cert.ReferenceIdeal.RefValue.out9 (launchContents m c)),
      (h c).2.2.2.2.2.2.2.2.2.2.1.trans (Cert.ReferenceIdeal.RefValue.out10 (launchContents m c)),
      (h c).2.2.2.2.2.2.2.2.2.2.2.1.trans (Cert.ReferenceIdeal.RefValue.out11 (launchContents m c)),
      (h c).2.2.2.2.2.2.2.2.2.2.2.2.1.trans (Cert.ReferenceIdeal.RefValue.out12 (launchContents m c)),
      (h c).2.2.2.2.2.2.2.2.2.2.2.2.2.1,
      (h c).2.2.2.2.2.2.2.2.2.2.2.2.2.2.1,
      (h c).2.2.2.2.2.2.2.2.2.2.2.2.2.2.2.1,
      (h c).2.2.2.2.2.2.2.2.2.2.2.2.2.2.2.2.1,
      (h c).2.2.2.2.2.2.2.2.2.2.2.2.2.2.2.2.2.1,
      (h c).2.2.2.2.2.2.2.2.2.2.2.2.2.2.2.2.2.2⟩)
    (Cert.ReferenceIdeal.Value.run (F := Ideal) m ρ)

end Cert.ReferenceIdeal.RefRun

end
-- ==== Proof.lean ====
/-
  The certificate of the corotational-beam element kernel against its array-level reference.

  Both programs take node displacements and coordinates, a connectivity table and three per-element section
  properties, and return the nodal force table with twelve per-element arrays.  The reference computes every
  quantity as whole arrays on the host; the kernel program gathers the same ten node columns, packs them with the
  three properties into a thirteen-row array, runs a pipelined region that computes twenty-one rows per element
  block by block, and cuts the rows into the results.  Read at the ideal instance (floats as extended reals, every
  operation exact), each result of either program is, element by element, the same expression of that element's
  thirteen numbers (`Cert.Beam`), so the results agree; no finiteness of the inputs is used, because the two
  programs perform the same operations in the same order and grouping (the only respellings are 0 - s for -s and
  a product with one half for a quotient by two, which are laws of the extended reals at every value).
  The three frames: the two kernel programs run by the pipeline library's run of a region whose body loads its
  block whole, computes and stores its block whole, between host operations that are total functions; the reference
  by its run as a line of host operations.  The idealization rewrote no operation, so there is nothing to preserve.
-/
import proofs.«416616_j12146167513831_4_alg».proof.Defs
import proofs.«416616_j12146167513831_4_alg».proof.Proof.FrameK
import proofs.«416616_j12146167513831_4_alg».proof.Proof.FrameKI
import proofs.«416616_j12146167513831_4_alg».proof.Proof.KernelValue
import proofs.«416616_j12146167513831_4_alg».proof.Proof.RefRun
import proofs.«416616_j12146167513831_4_alg».proof.Proof.Gen.Kernel
import proofs.«416616_j12146167513831_4_alg».proof.Proof.Gen.KernelIdeal
import proofs.«416616_j12146167513831_4_alg».proof.Proof.Gen.ReferenceIdeal
import proofs.«416616_j12146167513831_4_alg».proof.Proof.Gen.ReferenceIdeal.Run
import proofs.«416616_j12146167513831_4_alg».proof.Proof.Gen.Pre_finite_inputs

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference's frame is its run with the results forgotten. -/
theorem frame_ri : Cert.frame_ReferenceIdeal := fun m ρ _ =>
  (θ_run Cert.ReferenceIdeal.defs _ _).mono (fun _ h c => (h c).2.2.2.2.2.2.2.2.2.2.2.2.2)
    (Cert.ReferenceIdeal.Value.run (F := Ideal) m ρ)

/-- Both idealized programs end with every result at the same function of arguments that agree. -/
theorem algebraic : Cert.algebraic_KernelIdeal_ReferenceIdeal := by
  intro m ρ m' ρ' _ hagree
  refine ⟨_, _, _, _, _, _, _, _, _, _, _, _, _, Cert.KernelIdeal.Value.run m ρ, ?_⟩
  refine (θ_run Cert.ReferenceIdeal.defs _ _).mono (fun r h c => ?_) (Cert.ReferenceIdeal.RefRun.run m' ρ')
  have h0 := (hagree c).1
  have h1 := (hagree c).2.1
  have h2 := (hagree c).2.2.1
  have h3 := (hagree c).2.2.2.1
  have h4 := (hagree c).2.2.2.2.1
  have h5 := (hagree c).2.2.2.2.2
  obtain ⟨r0, r1, r2, r3, r4, r5, r6, r7, r8, r9, r10, r11, r12, k0, k1, k2, k3, k4, k5⟩ := h c
  rw [h0, h1, h2, h3, h4, h5] at r0 r1 r2 r3 r4 r5 r6 r7 r8 r9 r10 r11 r12
  exact ⟨r0, r1, r2, r3, r4, r5, r6, r7, r8, r9, r10, r11, r12, k0, k1, k2, k3, k4, k5⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
